-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_v38 : IVec S1x1600000 32 := (extractStridedSlice S1x1600000 ![0, 0] · slices_S2x1600000_S1x1600000_0_0) main_arg1
  let main_v39 : IVec S1600000 32 := shapeCast S1600000 main_v38 shapeCasts_S1x1600000_S1600000
  let main_c_13 : IVec S_ 32 := constantI S_ 32 100000#32
  let main_v40 : IVec S1600000 32 := broadcastInDim S1600000 ![] bcast_S_S1600000 main_c_13
  let main_v41 : IVec S1600000 1 := cmpi .slt main_v39 main_v40
  let main_v42 : IVec S1600000 1 := andi main_v37 main_v41
  let main_c_14 : IVec S_ 1 := constantI S_ 1 1#1
  let main_v43 : IVec S_ 1 := (fun x v => Host.reduce IntOp.andi x v reducesTo_S1600000_S_d0 h_S_) main_v42 main_c_14
  let main_v44 : IVec S_ 1 := andi main_v33 main_v43
  main_v44

def fn_part1 {F : FTy → Type} [FloatOps F] (main_arg1 : IVec S2x1600000 32) (main_arg5 : FVec F S64 .f32) (main_arg6 : FVec F S64x16 .f32) (main_arg7 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x16 .f32) (main_arg7 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x64 : Shape := ⟨2, ![5000, 64]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S100000x1 : Shape := ⟨2, ![100000, 1]⟩
abbrev S5000x1 : Shape := ⟨2, ![5000, 1]⟩
abbrev S1x16 : Shape := ⟨2, ![1, 16]⟩
abbrev S100000x16 : Shape := ⟨2, ![100000, 16]⟩
abbrev S5000x16 : Shape := ⟨2, ![5000, 16]⟩

abbrev nBuf : Space → Nat
  | .hbm => 112
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S100000, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1, .i32⟩
  | .hbm, ⟨52, _⟩ => ⟨S_, .i32⟩
  | .hbm, ⟨53, _⟩ => ⟨S1600000x1, .i32⟩
  | .hbm, ⟨54, _⟩ => ⟨S1600000x1, .i1⟩
  | .hbm, ⟨55, _⟩ => ⟨S1x1, .i32⟩
  | .hbm, ⟨56, _⟩ => ⟨S1600000x1, .i32⟩
  | .hbm, ⟨57, _⟩ => ⟨S1600000x1, .i1⟩
  | .hbm, ⟨58, _⟩ => ⟨S1600000x1, .i1⟩
  | .hbm, ⟨59, _⟩ => ⟨S_, .i1⟩
  | .hbm, ⟨60, _⟩ => ⟨S1600000, .i1⟩
  | .hbm, ⟨61, _⟩ => ⟨S1600000x64, .f32⟩
  | .hbm, ⟨62, _⟩ => ⟨S1600000x64, .i1⟩
  | .hbm, ⟨63, _⟩ => ⟨S_, .f32⟩
  | .hbm, ⟨64, _⟩ => ⟨S1600000x64, .f32⟩
  | .hbm, ⟨65, _⟩ => ⟨S1600000x64, .f32⟩
  | .hbm, ⟨66, _⟩ => ⟨S1600000x1, .f32⟩
  | .hbm, ⟨67, _⟩ => ⟨S1600000x64, .f32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S1x64, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1, .i32⟩
  | .hbm, ⟨86, _⟩ => ⟨S_, .i32⟩
  | .hbm, ⟨87, _⟩ => ⟨S1600000x1, .i32⟩
  | .hbm, ⟨88, _⟩ => ⟨S1600000x1, .i1⟩
  | .hbm, ⟨89, _⟩ => ⟨S1x1, .i32⟩
  | .hbm, ⟨90, _⟩ => ⟨S1600000x1, .i32⟩
  | .hbm, ⟨91, _⟩ => ⟨S1600000x1, .i1⟩
  | .hbm, ⟨92, _⟩ => ⟨S1600000x1, .i1⟩
  | .hbm, ⟨93, _⟩ => ⟨S_, .i1⟩
  | .hbm, ⟨94, _⟩ => ⟨S1600000, .i1⟩
  | .hbm, ⟨95, _⟩ => ⟨S1600000x64, .f32⟩
  | .hbm, ⟨96, _⟩ => ⟨S1600000x64, .i1⟩
  | .hbm, ⟨97, _⟩ => ⟨S_, .f32⟩
  | .hbm, ⟨98, _⟩ => ⟨S1600000x64, .f32⟩
  | .hbm, ⟨99, _⟩ => ⟨S1600000x64, .f32⟩
  | .hbm, ⟨100, _⟩ => ⟨S1600000x1, .f32⟩
  | .hbm, ⟨101, _⟩ => ⟨S1600000x64, .f32⟩
  | .hbm, ⟨102, _⟩ => ⟨S1600000x64, .f32⟩
  | .hbm, ⟨103, _⟩ => ⟨S_, .f32⟩
  | .hbm, ⟨104, _⟩ => ⟨S100000x64, .f32⟩
  | .hbm, ⟨105, _⟩ => ⟨S1600000x1, .i32⟩
  | .hbm, ⟨106, _⟩ => ⟨S100000x64, .f32⟩
  | .hbm, ⟨107, _⟩ => ⟨S1x64, .f32⟩
  | .hbm, ⟨108, _⟩ => ⟨S100000x1, .f32⟩
  | .hbm, ⟨109, _⟩ => ⟨S100000x64, .f32⟩
  | .hbm, ⟨110, _⟩ => ⟨S1x16, .f32⟩
  | .hbm, ⟨111, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x16, .f32⟩
  | .local _ .vmem, ⟨31, _⟩ => ⟨S1x16, .f32⟩
  | .local _ .vmem, ⟨32, _⟩ => ⟨S5000x16, .f32⟩
  | .local _ .vmem, ⟨33, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_call0_cst : Ref sig .tc := ⟨.hbm, 63, rfl⟩
abbrev main_call0_v15 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_5 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_call1_c : Ref sig .tc := ⟨.hbm, 77, rfl⟩
abbrev main_call1_v0 : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_c_1 : Ref sig .tc := ⟨.hbm, 85, rfl⟩
abbrev main_call1_c_2 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_3 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_call1_cst : Ref sig .tc := ⟨.hbm, 97, rfl⟩
abbrev main_call1_v15 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_6 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S5000x1_S5000x64 : S5000x1.Broadcasts S5000x64
  broadcasts_S1x64_S5000x64 : S1x64.Broadcasts S5000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x16.size a ≤ S64x16.size a
  hwx4_1 : ∀ i : grid4.Coords, EltTy.bits .f32 = 32 ∨ (Rect.block (s := S64x16) S64x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S100000x16.size a
  hwx4_3 : ∀ i : grid4.Coords, EltTy.bits .f32 = 32 ∨ (Rect.block (s := S100000x16) S5000x16.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v48) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v50) S5000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x16 : Shape := ⟨2, ![100000, 16]⟩
abbrev S1x16 : Shape := ⟨2, ![1, 16]⟩

abbrev nBuf : Space → Nat
  | .hbm => 130
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x16, .f32⟩
  | 7 => ⟨S16, .f32⟩
  | 8 => ⟨S1x1600000, .i32⟩
  | 9 => ⟨S1600000, .i32⟩
  | 10 => ⟨S1x1600000, .i32⟩
  | 11 => ⟨S1600000, .i32⟩
  | 12 => ⟨S100000x64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x64, .f32⟩
  | 51 => ⟨S1600000x1, .f32⟩
  | 52 => ⟨S1600000x64, .f32⟩
  | 53 => ⟨S1600000x64, .f32⟩
  | 54 => ⟨S_, .f32⟩
  | 55 => ⟨S100000x64, .f32⟩
  | 56 => ⟨S1600000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x64, .f32⟩
  | 108 => ⟨S1600000x1, .f32⟩
  | 109 => ⟨S1600000x64, .f32⟩
  | 110 => ⟨S1600000x64, .f32⟩
  | 111 => ⟨S_, .f32⟩
  | 112 => ⟨S100000x64, .f32⟩
  | 113 => ⟨S1600000x1, .i32⟩
  | 114 => ⟨S100000x64, .f32⟩
  | 115 => ⟨S100000, .f32⟩
  | 116 => ⟨S100000x1, .f32⟩
  | 117 => ⟨S100000x64, .f32⟩
  | 118 => ⟨S100000x64, .f32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S100000x16, .f32⟩
  | 127 => ⟨S1x16, .f32⟩
  | _ => ⟨S100000x64, .f32⟩

abbrev hbmTy0_1 (i : Nat) : BufTy := match i % 128 with
  | 0 => ⟨S100000x16, .f32⟩
  | 1 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Carry.lean ====
/- GENERATED by `python3 scratch/gen_carry.py > proof/Proof/Carry.lean` (run in the unit directory; the script holds the table of
   buffers and boundaries and the two lemma shapes).
   Buffers no step writes keep their contents across the steps of @main: the value of a buffer at a later boundary of the
   fold through @main's host stretches and regions is its value at the boundary where it was last written.  A region
   rewrites only its own windows' arrays; a host stretch only its operations' result buffers. -/
import proofs.«414285_j48490180772147_1_alg».proof.Proof.Gen.KernelIdeal.Frame
import Idealize.ShloMosaic.Lib.StableHlo.Run

set_option maxRecDepth 16384

noncomputable section

namespace Cert.KernelIdeal.Carry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The arguments at region 0's entry are the launch contents -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results

/-! ## One step at a time, then composed -/

theorem W2_v1 (c : Dev nD) : W2 m ρ c (Proc.devRef .tc main_v1) = W1 m ρ c (Proc.devRef .tc main_v1) :=
  W2_of_ne m ρ c main_v1 (by decide)
theorem W3_v1 (c : Dev nD) : W3 m ρ c (Proc.devRef .tc main_v1) = W2 m ρ c (Proc.devRef .tc main_v1) := by
  show StableHlo.after hostOps1 (W2 m ρ c) (Proc.devRef .tc main_v1) = _
  after_results
theorem W4_v1 (c : Dev nD) : W4 m ρ c (Proc.devRef .tc main_v1) = W3 m ρ c (Proc.devRef .tc main_v1) := by
  show StableHlo.after hostOps1_1 (W3 m ρ c) (Proc.devRef .tc main_v1) = _
  after_results
theorem W5_v1 (c : Dev nD) : W5 m ρ c (Proc.devRef .tc main_v1) = W4 m ρ c (Proc.devRef .tc main_v1) :=
  W5_of_ne m ρ c main_v1 (by decide)
theorem W6_v1 (c : Dev nD) : W6 m ρ c (Proc.devRef .tc main_v1) = W5 m ρ c (Proc.devRef .tc main_v1) :=
  W6_of_ne m ρ c main_v1 (by decide)
/-- `main_v1` holds at boundary 6 what it held at boundary 1: nothing between writes it. -/
theorem W6_v1_from1 (c : Dev nD) : W6 m ρ c (Proc.devRef .tc main_v1) = W1 m ρ c (Proc.devRef .tc main_v1) :=
  (W6_v1 m ρ c).trans ((W5_v1 m ρ c).trans ((W4_v1 m ρ c).trans ((W3_v1 m ρ c).trans (W2_v1 m ρ c))))
theorem W2_v3 (c : Dev nD) : W2 m ρ c (Proc.devRef .tc main_v3) = W1 m ρ c (Proc.devRef .tc main_v3) :=
  W2_of_ne m ρ c main_v3 (by decide)
theorem W3_v3 (c : Dev nD) : W3 m ρ c (Proc.devRef .tc main_v3) = W2 m ρ c (Proc.devRef .tc main_v3) := by
  show StableHlo.after hostOps1 (W2 m ρ c) (Proc.devRef .tc main_v3) = _
  after_results
theorem W4_v3 (c : Dev nD) : W4 m ρ c (Proc.devRef .tc main_v3) = W3 m ρ c (Proc.devRef .tc main_v3) := by
  show StableHlo.after hostOps1_1 (W3 m ρ c) (Proc.devRef .tc main_v3) = _
  after_results
theorem W5_v3 (c : Dev nD) : W5 m ρ c (Proc.devRef .tc main_v3) = W4 m ρ c (Proc.devRef .tc main_v3) :=
  W5_of_ne m ρ c main_v3 (by decide)
theorem W6_v3 (c : Dev nD) : W6 m ρ c (Proc.devRef .tc main_v3) = W5 m ρ c (Proc.devRef .tc main_v3) :=
  W6_of_ne m ρ c main_v3 (by decide)
theorem W7_v3 (c : Dev nD) : W7 m ρ c (Proc.devRef .tc main_v3) = W6 m ρ c (Proc.devRef .tc main_v3) := by
  show StableHlo.after hostOps3 (W6 m ρ c) (Proc.devRef .tc main_v3) = _
  after_results
/-- `main_v3` holds at boundary 7 what it held at boundary 1: nothing between writes it. -/
theorem W7_v3_from1 (c : Dev nD) : W7 m ρ c (Proc.devRef .tc main_v3) = W1 m ρ c (Proc.devRef .tc main_v3) :=
  (W7_v3 m ρ c).trans ((W6_v3 m ρ c).trans ((W5_v3 m ρ c).trans ((W4_v3 m ρ c).trans ((W3_v3 m ρ c).trans (W2_v3 m ρ c)))))
theorem W2_v25 (c : Dev nD) : W2 m ρ c (Proc.devRef .tc main_v25) = W1 m ρ c (Proc.devRef .tc main_v25) :=
  W2_of_ne m ρ c main_v25 (by decide)
theorem W3_v25 (c : Dev nD) : W3 m ρ c (Proc.devRef .tc main_v25) = W2 m ρ c (Proc.devRef .tc main_v25) := by
  show StableHlo.after hostOps1 (W2 m ρ c) (Proc.devRef .tc main_v25) = _
  after_results
theorem W4_v25 (c : Dev nD) : W4 m ρ c (Proc.devRef .tc main_v25) = W3 m ρ c (Proc.devRef .tc main_v25) := by
  show StableHlo.after hostOps1_1 (W3 m ρ c) (Proc.devRef .tc main_v25) = _
  after_results
theorem W5_v25 (c : Dev nD) : W5 m ρ c (Proc.devRef .tc main_v25) = W4 m ρ c (Proc.devRef .tc main_v25) :=
  W5_of_ne m ρ c main_v25 (by decide)
theorem W6_v25 (c : Dev nD) : W6 m ρ c (Proc.devRef .tc main_v25) = W5 m ρ c (Proc.devRef .tc main_v25) :=
  W6_of_ne m ρ c main_v25 (by decide)
theorem W7_v25 (c : Dev nD) : W7 m ρ c (Proc.devRef .tc main_v25) = W6 m ρ c (Proc.devRef .tc main_v25) := by
  show StableHlo.after hostOps3 (W6 m ρ c) (Proc.devRef .tc main_v25) = _
  after_results
/-- `main_v25` holds at boundary 7 what it held at boundary 1: nothing between writes it. -/
theorem W7_v25_from1 (c : Dev nD) : W7 m ρ c (Proc.devRef .tc main_v25) = W1 m ρ c (Proc.devRef .tc main_v25) :=
  (W7_v25 m ρ c).trans ((W6_v25 m ρ c).trans ((W5_v25 m ρ c).trans ((W4_v25 m ρ c).trans ((W3_v25 m ρ c).trans (W2_v25 m ρ c)))))
theorem W2_v26 (c : Dev nD) : W2 m ρ c (Proc.devRef .tc main_v26) = W1 m ρ c (Proc.devRef .tc main_v26) :=
  W2_of_ne m ρ c main_v26 (by decide)
theorem W3_v26 (c : Dev nD) : W3 m ρ c (Proc.devRef .tc main_v26) = W2 m ρ c (Proc.devRef .tc main_v26) := by
  show StableHlo.after hostOps1 (W2 m ρ c) (Proc.devRef .tc main_v26) = _
  after_results
theorem W4_v26 (c : Dev nD) : W4 m ρ c (Proc.devRef .tc main_v26) = W3 m ρ c (Proc.devRef .tc main_v26) := by
  show StableHlo.after hostOps1_1 (W3 m ρ c) (Proc.devRef .tc main_v26) = _
  after_results
theorem W5_v26 (c : Dev nD) : W5 m ρ c (Proc.devRef .tc main_v26) = W4 m ρ c (Proc.devRef .tc main_v26) :=
  W5_of_ne m ρ c main_v26 (by decide)
theorem W6_v26 (c : Dev nD) : W6 m ρ c (Proc.devRef .tc main_v26) = W5 m ρ c (Proc.devRef .tc main_v26) :=
  W6_of_ne m ρ c main_v26 (by decide)
theorem W7_v26 (c : Dev nD) : W7 m ρ c (Proc.devRef .tc main_v26) = W6 m ρ c (Proc.devRef .tc main_v26) := by
  show StableHlo.after hostOps3 (W6 m ρ c) (Proc.devRef .tc main_v26) = _
  after_results
/-- `main_v26` holds at boundary 7 what it held at boundary 1: nothing between writes it. -/
theorem W7_v26_from1 (c : Dev nD) : W7 m ρ c (Proc.devRef .tc main_v26) = W1 m ρ c (Proc.devRef .tc main_v26) :=
  (W7_v26 m ρ c).trans ((W6_v26 m ρ c).trans ((W5_v26 m ρ c).trans ((W4_v26 m ρ c).trans ((W3_v26 m ρ c).trans (W2_v26 m ρ c)))))
theorem W2_arg3 (c : Dev nD) : W2 m ρ c (Proc.devRef .tc main_arg3) = W1 m ρ c (Proc.devRef .tc main_arg3) :=
  W2_of_ne m ρ c main_arg3 (by decide)
theorem W3_arg3 (c : Dev nD) : W3 m ρ c (Proc.devRef .tc main_arg3) = W2 m ρ c (Proc.devRef .tc main_arg3) := by
  show StableHlo.after hostOps1 (W2 m ρ c) (Proc.devRef .tc main_arg3) = _
  after_results
/-- `main_arg3` holds at boundary 3 what it held at boundary 1: nothing between writes it. -/
theorem W3_arg3_from1 (c : Dev nD) : W3 m ρ c (Proc.devRef .tc main_arg3) = W1 m ρ c (Proc.devRef .tc main_arg3) :=
  (W3_arg3 m ρ c).trans (W2_arg3 m ρ c)
theorem W2_arg5 (c : Dev nD) : W2 m ρ c (Proc.devRef .tc main_arg5) = W1 m ρ c (Proc.devRef .tc main_arg5) :=
  W2_of_ne m ρ c main_arg5 (by decide)
theorem W3_arg5 (c : Dev nD) : W3 m ρ c (Proc.devRef .tc main_arg5) = W2 m ρ c (Proc.devRef .tc main_arg5) := by
  show StableHlo.after hostOps1 (W2 m ρ c) (Proc.devRef .tc main_arg5) = _
  after_results
theorem W4_arg5 (c : Dev nD) : W4 m ρ c (Proc.devRef .tc main_arg5) = W3 m ρ c (Proc.devRef .tc main_arg5) := by
  show StableHlo.after hostOps1_1 (W3 m ρ c) (Proc.devRef .tc main_arg5) = _
  after_results
theorem W5_arg5 (c : Dev nD) : W5 m ρ c (Proc.devRef .tc main_arg5) = W4 m ρ c (Proc.devRef .tc main_arg5) :=
  W5_of_ne m ρ c main_arg5 (by decide)
theorem W6_arg5 (c : Dev nD) : W6 m ρ c (Proc.devRef .tc main_arg5) = W5 m ρ c (Proc.devRef .tc main_arg5) :=
  W6_of_ne m ρ c main_arg5 (by decide)
theorem W7_arg5 (c : Dev nD) : W7 m ρ c (Proc.devRef .tc main_arg5) = W6 m ρ c (Proc.devRef .tc main_arg5) := by
  show StableHlo.after hostOps3 (W6 m ρ c) (Proc.devRef .tc main_arg5) = _
  after_results
/-- `main_arg5` holds at boundary 7 what it held at boundary 1: nothing between writes it. -/
theorem W7_arg5_from1 (c : Dev nD) : W7 m ρ c (Proc.devRef .tc main_arg5) = W1 m ρ c (Proc.devRef .tc main_arg5) :=
  (W7_arg5 m ρ c).trans ((W6_arg5 m ρ c).trans ((W5_arg5 m ρ c).trans ((W4_arg5 m ρ c).trans ((W3_arg5 m ρ c).trans (W2_arg5 m ρ c)))))
theorem W2_arg7 (c : Dev nD) : W2 m ρ c (Proc.devRef .tc main_arg7) = W1 m ρ c (Proc.devRef .tc main_arg7) :=
  W2_of_ne m ρ c main_arg7 (by decide)
theorem W3_arg7 (c : Dev nD) : W3 m ρ c (Proc.devRef .tc main_arg7) = W2 m ρ c (Proc.devRef .tc main_arg7) := by
  show StableHlo.after hostOps1 (W2 m ρ c) (Proc.devRef .tc main_arg7) = _
  after_results
theorem W4_arg7 (c : Dev nD) : W4 m ρ c (Proc.devRef .tc main_arg7) = W3 m ρ c (Proc.devRef .tc main_arg7) := by
  show StableHlo.after hostOps1_1 (W3 m ρ c) (Proc.devRef .tc main_arg7) = _
  after_results
theorem W5_arg7 (c : Dev nD) : W5 m ρ c (Proc.devRef .tc main_arg7) = W4 m ρ c (Proc.devRef .tc main_arg7) :=
  W5_of_ne m ρ c main_arg7 (by decide)
theorem W6_arg7 (c : Dev nD) : W6 m ρ c (Proc.devRef .tc main_arg7) = W5 m ρ c (Proc.devRef .tc main_arg7) :=
  W6_of_ne m ρ c main_arg7 (by decide)
theorem W7_arg7 (c : Dev nD) : W7 m ρ c (Proc.devRef .tc main_arg7) = W6 m ρ c (Proc.devRef .tc main_arg7) := by
  show StableHlo.after hostOps3 (W6 m ρ c) (Proc.devRef .tc main_arg7) = _
  after_results
theorem W8_arg7 (c : Dev nD) : W8 m ρ c (Proc.devRef .tc main_arg7) = W7 m ρ c (Proc.devRef .tc main_arg7) := by
  show StableHlo.after hostOps3_1 (W7 m ρ c) (Proc.devRef .tc main_arg7) = _
  after_results
theorem W9_arg7 (c : Dev nD) : W9 m ρ c (Proc.devRef .tc main_arg7) = W8 m ρ c (Proc.devRef .tc main_arg7) :=
  W9_of_ne m ρ c main_arg7 (by decide)
/-- `main_arg7` holds at boundary 9 what it held at boundary 1: nothing between writes it. -/
theorem W9_arg7_from1 (c : Dev nD) : W9 m ρ c (Proc.devRef .tc main_arg7) = W1 m ρ c (Proc.devRef .tc main_arg7) :=
  (W9_arg7 m ρ c).trans ((W8_arg7 m ρ c).trans ((W7_arg7 m ρ c).trans ((W6_arg7 m ρ c).trans ((W5_arg7 m ρ c).trans ((W4_arg7 m ρ c).trans ((W3_arg7 m ρ c).trans (W2_arg7 m ρ c)))))))
theorem W2_arg4 (c : Dev nD) : W2 m ρ c (Proc.devRef .tc main_arg4) = W1 m ρ c (Proc.devRef .tc main_arg4) :=
  W2_of_ne m ρ c main_arg4 (by decide)
theorem W3_arg4 (c : Dev nD) : W3 m ρ c (Proc.devRef .tc main_arg4) = W2 m ρ c (Proc.devRef .tc main_arg4) := by
  show StableHlo.after hostOps1 (W2 m ρ c) (Proc.devRef .tc main_arg4) = _
  after_results
theorem W4_arg4 (c : Dev nD) : W4 m ρ c (Proc.devRef .tc main_arg4) = W3 m ρ c (Proc.devRef .tc main_arg4) := by
  show StableHlo.after hostOps1_1 (W3 m ρ c) (Proc.devRef .tc main_arg4) = _
  after_results
theorem W5_arg4 (c : Dev nD) : W5 m ρ c (Proc.devRef .tc main_arg4) = W4 m ρ c (Proc.devRef .tc main_arg4) :=
  W5_of_ne m ρ c main_arg4 (by decide)
/-- `main_arg4` holds at boundary 5 what it held at boundary 1: nothing between writes it. -/
theorem W5_arg4_from1 (c : Dev nD) : W5 m ρ c (Proc.devRef .tc main_arg4) = W1 m ρ c (Proc.devRef .tc main_arg4) :=
  (W5_arg4 m ρ c).trans ((W4_arg4 m ρ c).trans ((W3_arg4 m ρ c).trans (W2_arg4 m ρ c)))
theorem W2_arg6 (c : Dev nD) : W2 m ρ c (Proc.devRef .tc main_arg6) = W1 m ρ c (Proc.devRef .tc main_arg6) :=
  W2_of_ne m ρ c main_arg6 (by decide)
theorem W3_arg6 (c : Dev nD) : W3 m ρ c (Proc.devRef .tc main_arg6) = W2 m ρ c (Proc.devRef .tc main_arg6) := by
  show StableHlo.after hostOps1 (W2 m ρ c) (Proc.devRef .tc main_arg6) = _
  after_results
theorem W4_arg6 (c : Dev nD) : W4 m ρ c (Proc.devRef .tc main_arg6) = W3 m ρ c (Proc.devRef .tc main_arg6) := by
  show StableHlo.after hostOps1_1 (W3 m ρ c) (Proc.devRef .tc main_arg6) = _
  after_results
theorem W5_arg6 (c : Dev nD) : W5 m ρ c (Proc.devRef .tc main_arg6) = W4 m ρ c (Proc.devRef .tc main_arg6) :=
  W5_of_ne m ρ c main_arg6 (by decide)
theorem W6_arg6 (c : Dev nD) : W6 m ρ c (Proc.devRef .tc main_arg6) = W5 m ρ c (Proc.devRef .tc main_arg6) :=
  W6_of_ne m ρ c main_arg6 (by decide)
theorem W7_arg6 (c : Dev nD) : W7 m ρ c (Proc.devRef .tc main_arg6) = W6 m ρ c (Proc.devRef .tc main_arg6) := by
  show StableHlo.after hostOps3 (W6 m ρ c) (Proc.devRef .tc main_arg6) = _
  after_results
theorem W8_arg6 (c : Dev nD) : W8 m ρ c (Proc.devRef .tc main_arg6) = W7 m ρ c (Proc.devRef .tc main_arg6) := by
  show StableHlo.after hostOps3_1 (W7 m ρ c) (Proc.devRef .tc main_arg6) = _
  after_results
theorem W9_arg6 (c : Dev nD) : W9 m ρ c (Proc.devRef .tc main_arg6) = W8 m ρ c (Proc.devRef .tc main_arg6) :=
  W9_of_ne m ρ c main_arg6 (by decide)
theorem W10_arg6 (c : Dev nD) : W10 m ρ c (Proc.devRef .tc main_arg6) = W9 m ρ c (Proc.devRef .tc main_arg6) := by
  show StableHlo.after hostOps4 (W9 m ρ c) (Proc.devRef .tc main_arg6) = _
  after_results
/-- `main_arg6` holds at boundary 10 what it held at boundary 1: nothing between writes it. -/
theorem W10_arg6_from1 (c : Dev nD) : W10 m ρ c (Proc.devRef .tc main_arg6) = W1 m ρ c (Proc.devRef .tc main_arg6) :=
  (W10_arg6 m ρ c).trans ((W9_arg6 m ρ c).trans ((W8_arg6 m ρ c).trans ((W7_arg6 m ρ c).trans ((W6_arg6 m ρ c).trans ((W5_arg6 m ρ c).trans ((W4_arg6 m ρ c).trans ((W3_arg6 m ρ c).trans (W2_arg6 m ρ c))))))))
theorem W3_v27 (c : Dev nD) : W3 m ρ c (Proc.devRef .tc main_v27) = W2 m ρ c (Proc.devRef .tc main_v27) := by
  show StableHlo.after hostOps1 (W2 m ρ c) (Proc.devRef .tc main_v27) = _
  after_results
theorem W4_v27 (c : Dev nD) : W4 m ρ c (Proc.devRef .tc main_v27) = W3 m ρ c (Proc.devRef .tc main_v27) := by
  show StableHlo.after hostOps1_1 (W3 m ρ c) (Proc.devRef .tc main_v27) = _
  after_results
/-- `main_v27` holds at boundary 4 what it held at boundary 2: nothing between writes it. -/
theorem W4_v27_from2 (c : Dev nD) : W4 m ρ c (Proc.devRef .tc main_v27) = W2 m ρ c (Proc.devRef .tc main_v27) :=
  (W4_v27 m ρ c).trans (W3_v27 m ρ c)
theorem W7_v38 (c : Dev nD) : W7 m ρ c (Proc.devRef .tc main_v38) = W6 m ρ c (Proc.devRef .tc main_v38) := by
  show StableHlo.after hostOps3 (W6 m ρ c) (Proc.devRef .tc main_v38) = _
  after_results
theorem W8_v38 (c : Dev nD) : W8 m ρ c (Proc.devRef .tc main_v38) = W7 m ρ c (Proc.devRef .tc main_v38) := by
  show StableHlo.after hostOps3_1 (W7 m ρ c) (Proc.devRef .tc main_v38) = _
  after_results
/-- `main_v38` holds at boundary 8 what it held at boundary 6: nothing between writes it. -/
theorem W8_v38_from6 (c : Dev nD) : W8 m ρ c (Proc.devRef .tc main_v38) = W6 m ρ c (Proc.devRef .tc main_v38) :=
  (W8_v38 m ρ c).trans (W7_v38 m ρ c)

end Cert.KernelIdeal.Carry

end
-- ==== Proof.Stretch0.lean ====
/-
  The first host stretch of the kernel's @main computes, from `edge_index` alone, the source ids `src`, the target ids
  `dst`, the edge coefficients `coef = dinv[src] · dinv[dst]` and the self-loop factors `dinv²`, where
  `dinv = rsqrt(deg + 1)` and `deg` is the scatter-add of ones over `dst` — by the same operations, in the same order, as
  the reference: at region 0's entry each of these buffers holds the reference's stage of the same name.
-/
import proofs.«414285_j48490180772147_1_alg».proof.Proof.Gen.KernelIdeal.Frame
import proofs.«414285_j48490180772147_1_alg».proof.Proof.Gen.ReferenceIdeal.Read
import Idealize.ShloMosaic.Lib.StableHlo.Run

set_option maxRecDepth 16384

noncomputable section

namespace Cert.KernelIdeal.Stretch0

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The source ids: row 0 of `edge_index` as a vector. -/
theorem src_eq (c : Dev nD) : W1 m ρ c (Proc.devRef .tc main_v1) = Cert.ReferenceIdeal.Read.val_main_v1 (F := F) (m ((c : Thread nD τ).loc main_arg1)) := by
  show StableHlo.after hostOps0 (W0 m ρ c) (Proc.devRef .tc main_v1) = _
  after_results
  rfl

/-- The target ids: row 1 of `edge_index` as a vector. -/
theorem dst_eq (c : Dev nD) : W1 m ρ c (Proc.devRef .tc main_v3) = Cert.ReferenceIdeal.Read.val_main_v3 (F := F) (m ((c : Thread nD τ).loc main_arg1)) := by
  show StableHlo.after hostOps0 (W0 m ρ c) (Proc.devRef .tc main_v3) = _
  after_results
  rfl

set_option maxHeartbeats 1600000 in
/-- The edge coefficients `dinv[src] · dinv[dst]`. -/
theorem coef_eq (c : Dev nD) : W1 m ρ c (Proc.devRef .tc main_v25) = Cert.ReferenceIdeal.Read.val_main_v26 (F := F) (m ((c : Thread nD τ).loc main_arg1)) := by
  show StableHlo.after hostOps0 (W0 m ρ c) (Proc.devRef .tc main_v25) = _
  after_results_simp
  rfl

set_option maxHeartbeats 1600000 in
/-- The self-loop factors `dinv · dinv`. -/
theorem dinv2_eq (c : Dev nD) : W1 m ρ c (Proc.devRef .tc main_v26) = Cert.ReferenceIdeal.Read.val_main_v40 (F := F) (m ((c : Thread nD τ).loc main_arg1)) := by
  show StableHlo.after hostOps0 (W0 m ρ c) (Proc.devRef .tc main_v26) = _
  after_results_simp
  rfl

end Cert.KernelIdeal.Stretch0

end
-- ==== Proof.SrcRange.lean ====
/-
  The added precondition, read back: every source id `edge_index[0, e]` is a node id, 0 ≤ id < 100000 (signed words).

  The printed precondition is the conjunction of the finiteness tests and, last, `jnp.all` of "0 ≤ src ∧ src < 100000" over
  the source row `src` = row 0 of `edge_index`, sliced and reshaped to a vector exactly as both programs do.  The last conjunct
  is 1; an `and`-reduction that is 1 met a 1 at every index; a bitwise `and` that is 1 has both operands 1.
-/
import proofs.«414285_j48490180772147_1_alg».proof.Defs
import proofs.«414285_j48490180772147_1_alg».proof.Proof.Gen.KernelIdeal
import proofs.«414285_j48490180772147_1_alg».proof.Proof.Gen.Pre_finite_inputs
import Idealize.ShloMosaic.Lib.ReduceAll
import Idealize.ShloMosaic.Lib.ValueIdx

noncomputable section

namespace Cert.SrcRange

open Idealize.ShloMosaic Idealize.SL.Sem Cert.KernelIdeal

instance : Subsingleton Cert.Pre_finite_inputs.S_.Idx := ⟨fun a b => funext fun d => d.elim0⟩

/-- Every source id is in range, as the two signed word compares the precondition makes. -/
theorem src_in_range (m : (ℓ : Loc nD τ sig) → Buf (Elt Ideal) ℓ) (h : Cert.Pre_KernelIdeal m) (c : Dev nD)
    (hs : S2x1600000.Slices ![0, 0] S1x1600000) (hc : S1x1600000.ShapeCasts S1600000) (e : S1600000.Idx) :
    IntOp.cmpi .sge (shapeCast S1600000 (extractStridedSlice S1x1600000 ![0, 0] (m ((c.tc : Thread nD τ).loc main_arg1)) hs) hc e) 0#32 = 1#1
    ∧ IntOp.cmpi .slt (shapeCast S1600000 (extractStridedSlice S1x1600000 ![0, 0] (m ((c.tc : Thread nD τ).loc main_arg1)) hs) hc e) 100000#32 = 1#1 := by
  have e0 := congrFun (h c) ValueIdx.ix0
  unfold Cert.Pre_finite_inputs.fn Cert.Pre_finite_inputs.fn_part1 Cert.Pre_finite_inputs.fn_part2 at e0
  dsimp only at e0
  have e1 := (IntOp.andi_eq_one.1 e0).2
  have e2 := Host.reduce_andi_all _ _ _ _ _ e1 e
  exact IntOp.andi_eq_one.1 e2

end Cert.SrcRange

end
-- ==== Proof.LibTakeFill.lean ====
/-
  A row gather with a fill for out-of-range rows, read where every row index is in range.

  `take` with the fill mode prints as: the index column `I` (the row ids, a negative id moved up by the row count `N`), a mask
  "0 ≤ I ≤ N − 1" reduced by `and` along the column's unit axis, and a select between the gathered rows and the fill.
  Where every id `s e` satisfies 0 ≤ s e < N (signed), no id is moved, every mask bit is 1, and the select returns the
  gathered rows.  Also here: a reshape of a vector to a column or to a row is the `broadcast_in_dim` to that shape.
-/
import Idealize.ShloMosaic.PureOps
import Idealize.ShloMosaic.Lib.ReduceAll
import Idealize.ShloMosaic.Lib.Pipeline.Value
import Idealize.ShloMosaic.Lib.ValueIdx

namespace Cert.LibTakeFill

open Idealize.ShloMosaic

abbrev S0 : Shape := ⟨0, ![]⟩
abbrev S1 : Shape := ⟨1, ![1]⟩
abbrev S11 : Shape := ⟨2, ![1, 1]⟩

variable {E C : Nat}

/-- The index column a `take` builds from the ids `s`: an id below zero is moved up by `N`, then the ids stand as a column. -/
def idxCol (N : BitVec 32) (s : IVec ⟨1, ![E]⟩ 32) (hb0 : S0.BroadcastsInDim ⟨1, ![E]⟩ (![] : Fin 0 → Fin 1))
    (hcol : (⟨1, ![E]⟩ : Shape).BroadcastsInDim ⟨2, ![E, 1]⟩ ![0]) : IVec ⟨2, ![E, 1]⟩ 32 :=
  broadcastInDim ⟨2, ![E, 1]⟩ ![0] hcol
    (select (cmpi .slt s (broadcastInDim ⟨1, ![E]⟩ ![] hb0 (constantI S0 32 0#32)))
      (addi s (broadcastInDim ⟨1, ![E]⟩ ![] hb0 (constantI S0 32 N))) s)

/-- The mask a `take` builds over that column: "0 ≤ I and I ≤ hi", reduced by `and` along the unit axis. -/
def inRangeMask (N hi : BitVec 32) (s : IVec ⟨1, ![E]⟩ 32) (hb0 : S0.BroadcastsInDim ⟨1, ![E]⟩ (![] : Fin 0 → Fin 1))
    (hcol : (⟨1, ![E]⟩ : Shape).BroadcastsInDim ⟨2, ![E, 1]⟩ ![0])
    (hb01 : S0.BroadcastsInDim ⟨2, ![E, 1]⟩ (![] : Fin 0 → Fin 2))
    (h1 : S1.BroadcastsInDim S11 ![1]) (h11 : S11.BroadcastsInDim ⟨2, ![E, 1]⟩ ![0, 1])
    (hred : (⟨2, ![E, 1]⟩ : Shape).ReducesTo [1] ⟨1, ![E]⟩) (h0 : 0 < S0.numel) : IVec ⟨1, ![E]⟩ 1 :=
  Host.reduce IntOp.andi
    (andi (cmpi .sge (idxCol N s hb0 hcol) (broadcastInDim ⟨2, ![E, 1]⟩ ![] hb01 (constantI S0 32 0#32)))
          (cmpi .sle (idxCol N s hb0 hcol) (broadcastInDim ⟨2, ![E, 1]⟩ ![0, 1] h11 (broadcastInDim S11 ![1] h1 (constantI S1 32 hi)))))
    (constantI S0 1 1#1) hred h0

/-- A left fold by `and` that starts at 1 and meets only 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A word in [0, 100000) signed is not below zero and is at most 99999. -/
theorem word_in_range (w : BitVec 32) (h0 : IntOp.cmpi .sge w 0#32 = 1#1) (h1 : IntOp.cmpi .slt w 100000#32 = 1#1) :
    IntOp.cmpi .slt w 0#32 = 0#1 ∧ IntOp.cmpi .sle w 99999#32 = 1#1 := by
  rw [IntOp.cmpi_sge] at h0
  rw [IntOp.cmpi_slt] at h1
  have z0 : (0#32 : BitVec 32).toInt = 0 := by decide
  have z1 : (100000#32 : BitVec 32).toInt = 100000 := by decide
  have z2 : (99999#32 : BitVec 32).toInt = 99999 := by decide
  rw [z0] at h0
  rw [z1] at h1
  refine ⟨ValueIdx.eq_zero_of_ne_one fun h => ?_, ?_⟩
  · rw [IntOp.cmpi_slt, z0] at h
    omega
  · rw [IntOp.cmpi_sle, z2]
    omega

/-- The row of the ids that the column entry `i` reads. -/
abbrev rowOf (i : (⟨2, ![E, 1]⟩ : Shape).Idx) : (⟨1, ![E]⟩ : Shape).Idx := ValueIdx.ix1 ⟨(i 0).val, ValueIdx.idx2_lt0 i⟩

/-- Where the id is in range it is not moved: the column entry is the id itself. -/
theorem idxCol_apply (s : IVec ⟨1, ![E]⟩ 32)
    (hs : ∀ e, IntOp.cmpi .sge (s e) 0#32 = 1#1 ∧ IntOp.cmpi .slt (s e) 100000#32 = 1#1)
    (hb0 hcol) (i : (⟨2, ![E, 1]⟩ : Shape).Idx) :
    idxCol (E := E) 100000#32 s hb0 hcol i = s (rowOf i) := by
  unfold idxCol
  refine (broadcastInDim_apply _ hcol _ i (rowOf i) (fun a => match a with
    | ⟨0, _⟩ => by
      have h0 : (i 0).val < E := ValueIdx.idx2_lt0 i
      show (i 0).val = if E = 1 then 0 else (i 0).val
      split <;> omega)).trans ?_
  show Scalar.select (IntOp.cmpi .slt (s (rowOf i)) 0#32) (IntOp.addi (s (rowOf i)) 100000#32) (s (rowOf i)) = s (rowOf i)
  rw [(word_in_range _ (hs (rowOf i)).1 (hs (rowOf i)).2).1, ValueIdx.select_zero]

/-- Where every id is in [0, 100000) signed, every bit of the mask "0 ≤ I ≤ 99999" is 1. -/
theorem inRangeMask_eq_one (s : IVec ⟨1, ![E]⟩ 32)
    (hs : ∀ e, IntOp.cmpi .sge (s e) 0#32 = 1#1 ∧ IntOp.cmpi .slt (s e) 100000#32 = 1#1)
    (hb0 hcol hb01 h1 h11 hred h0) (e : (⟨1, ![E]⟩ : Shape).Idx) :
    inRangeMask (E := E) 100000#32 99999#32 s hb0 hcol hb01 h1 h11 hred h0 e = 1#1 := by
  unfold inRangeMask
  rw [Host.reduce_eq_foldl]
  refine foldl_andi_one _ (fun i => ?_) _
  show IntOp.andi (IntOp.cmpi .sge (idxCol (E := E) 100000#32 s hb0 hcol i) 0#32)
      (IntOp.cmpi .sle (idxCol (E := E) 100000#32 s hb0 hcol i) 99999#32) = 1#1
  rw [idxCol_apply s hs hb0 hcol i, (hs (rowOf i)).1, (word_in_range _ (hs (rowOf i)).1 (hs (rowOf i)).2).2]
  rfl

/-- THE READ: with every id in [0, 100000) the select between the gathered rows `G` and the fill `Z` under the
    row mask is `G`. -/
theorem select_mask_eq {α : Type} (s : IVec ⟨1, ![E]⟩ 32)
    (hs : ∀ e, IntOp.cmpi .sge (s e) 0#32 = 1#1 ∧ IntOp.cmpi .slt (s e) 100000#32 = 1#1)
    (hb0 hcol hb01 h1 h11 hred h0)
    (hm : (⟨1, ![E]⟩ : Shape).BroadcastsInDim ⟨2, ![E, C]⟩ ![0])
    (G Z : (⟨2, ![E, C]⟩ : Shape).Idx → α) :
    select (broadcastInDim ⟨2, ![E, C]⟩ ![0] hm (inRangeMask (E := E) 100000#32 99999#32 s hb0 hcol hb01 h1 h11 hred h0)) G Z = G := by
  funext i
  have hi : (i 0).val < E := ValueIdx.idx2_lt0 i
  rw [ValueIdx.select_apply,
    broadcastInDim_apply ![0] hm _ i (ValueIdx.ix1 ⟨(i 0).val, hi⟩) (fun a => match a with
      | ⟨0, _⟩ => by
        show (i 0).val = if E = 1 then 0 else (i 0).val
        split <;> omega),
    inRangeMask_eq_one s hs, ValueIdx.select_one]

/-- A reshape of a vector to a column is its `broadcast_in_dim` along axis 0. -/
theorem shapeCast_col_eq_bcast {α : Type} {n : Nat} (x : (⟨1, ![n]⟩ : Shape).Idx → α)
    (hc : (⟨1, ![n]⟩ : Shape).ShapeCasts ⟨2, ![n, 1]⟩) (hb : (⟨1, ![n]⟩ : Shape).BroadcastsInDim ⟨2, ![n, 1]⟩ ![0]) :
    shapeCast ⟨2, ![n, 1]⟩ x hc = broadcastInDim ⟨2, ![n, 1]⟩ ![0] hb x := by
  funext j
  have h0 : (j 0).val < n := ValueIdx.idx2_lt0 j
  have h1 : (j 1).val < 1 := ValueIdx.idx2_lt1 j
  -- the column entry (r, 0) stands at row-major position r * 1 + 0 = r, the position of entry r of the vector
  rw [shapeCast_apply x hc j (ValueIdx.ix1 ⟨(j 0).val, h0⟩) (by
    rw [Shape.rowMajor_val_one, Shape.rowMajor_val_two]
    show (j 0).val = (j 0).val * 1 + (j 1).val
    omega)]
  exact (broadcastInDim_apply ![0] hb x j (ValueIdx.ix1 ⟨(j 0).val, h0⟩) (fun a => match a with
    | ⟨0, _⟩ => by
      show (j 0).val = if n = 1 then 0 else (j 0).val
      split <;> omega)).symm

/-- A reshape of a vector to a row is its `broadcast_in_dim` along axis 1. -/
theorem shapeCast_row_eq_bcast {α : Type} {n : Nat} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  have h0 : (j 0).val < 1 := ValueIdx.idx2_lt0 j
  have h1 : (j 1).val < n := ValueIdx.idx2_lt1 j
  -- the row entry (0, c) stands at row-major position 0 * n + c = c, the position of entry c of the vector
  rw [shapeCast_apply x hc j (ValueIdx.ix1 ⟨(j 1).val, h1⟩) (by
    rw [Shape.rowMajor_val_one, Shape.rowMajor_val_two]
    show (j 1).val = (j 0).val * n + (j 1).val
    have : (j 0).val = 0 := by omega
    rw [this]
    omega)]
  exact (broadcastInDim_apply ![1] hb x j (ValueIdx.ix1 ⟨(j 1).val, h1⟩) (fun a => match a with
    | ⟨0, _⟩ => by
      show (j 1).val = if n = 1 then 0 else (j 1).val
      split <;> omega)).symm

end Cert.LibTakeFill
-- ==== Proof.Takes.lean ====
/-
  The kernel's row gather with a fill is the reference's clamping gather where the source ids are node ids (layer 1).

  A host stretch of the kernel computes, from the ids `src` and the projected rows `h`: the index column (a negative id moved
  up by 100000), the mask "0 ≤ index ≤ 99999" of the in-range rows, the gather of `h`'s rows at the index column, and the
  select between the gathered rows and a fill under the mask.  With 0 ≤ src < 100000 every mask bit is 1 and the select is
  the gather, which is the reference's stage: the same gather of the same projection at the same index column.  Stated over
  any contents of the buffers the stretch starts from, at any float instance; the stretch's operations carry each value to its
  buffer's type and back, which changes nothing.
-/
import proofs.«414285_j48490180772147_1_alg».proof.Proof.Gen.KernelIdeal.Frame
import proofs.«414285_j48490180772147_1_alg».proof.Proof.Gen.ReferenceIdeal.Read
import proofs.«414285_j48490180772147_1_alg».proof.Proof.LibTakeFill
import Idealize.ShloMosaic.Lib.StableHlo.Run

set_option maxRecDepth 16384

noncomputable section

namespace Cert.KernelIdeal.Takes

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F]

/-- Contents carried to a buffer's type and back are the contents. -/
theorem ofBuf_toBuf {T : BufTy} (x : TRef sig T) (v : T.Contents (Elt F)) : x.ofBuf (x.toBuf v) = v := by
  obtain ⟨r, rfl, h2, h3⟩ := x
  rfl

set_option maxHeartbeats 1600000 in
/-- Layer 1: where the projection's buffer holds the reference's projection and the id buffer the source ids, all in
    range, the gathered rows are the reference's gather. -/
theorem take1_eq (Wp : Valuation τ sig (Elt F)) (x0 : (⟨S100000x64, .f32⟩ : BufTy).Contents (Elt F)) (x1 : (⟨S2x1600000, .i32⟩ : BufTy).Contents (Elt F)) (x2 : (⟨S64x64, .f32⟩ : BufTy).Contents (Elt F))
    (h1 : (TRef.of main_v1 : TRef sig ⟨S1600000, .i32⟩).ofBuf (Wp (Proc.devRef .tc main_v1)) = val_main_v1 (F := F) x1)
    (hp : (TRef.of main_v27 : TRef sig ⟨S100000x64, .f32⟩).ofBuf (Wp (Proc.devRef .tc main_v27)) = val_main_v4 (F := F) x0 x2)
    (hs : ∀ e, IntOp.cmpi .sge (val_main_v1 (F := F) x1 e) 0#32 = 1#1 ∧ IntOp.cmpi .slt (val_main_v1 (F := F) x1 e) 100000#32 = 1#1) :
    (TRef.of main_v28 : TRef sig ⟨S1600000x64, .f32⟩).ofBuf (StableHlo.after hostOps1 Wp (Proc.devRef .tc main_v28))
      = val_main_v33 (F := F) x0 x1 x2 := by
  after_results_simp
  simp only [ofBuf_toBuf]
  rw [h1, hp]
  have key := Cert.LibTakeFill.select_mask_eq (E := 1600000) (C := 64) (α := Elt F EltTy.f32) (val_main_v1 (F := F) x1) hs
    (by decide) (by decide) (by decide) (by decide) (by decide) (by decide) (by decide) (by decide)
  unfold Cert.LibTakeFill.inRangeMask Cert.LibTakeFill.idxCol at key
  rw [key]
  rfl

end Cert.KernelIdeal.Takes

end
-- ==== Proof.Takes2.lean ====
/-
  The kernel's row gather with a fill is the reference's clamping gather where the source ids are node ids (layer 2).

  A host stretch of the kernel computes, from the ids `src` and the projected rows `h`: the index column (a negative id moved
  up by 100000), the mask "0 ≤ index ≤ 99999" of the in-range rows, the gather of `h`'s rows at the index column, and the
  select between the gathered rows and a fill under the mask.  With 0 ≤ src < 100000 every mask bit is 1 and the select is
  the gather, which is the reference's stage: the same gather of the same projection at the same index column.  Stated over
  any contents of the buffers the stretch starts from, at any float instance; the stretch's operations carry each value to its
  buffer's type and back, which changes nothing.
-/
import proofs.«414285_j48490180772147_1_alg».proof.Proof.Gen.KernelIdeal.Frame
import proofs.«414285_j48490180772147_1_alg».proof.Proof.Gen.ReferenceIdeal.Read
import proofs.«414285_j48490180772147_1_alg».proof.Proof.LibTakeFill
import Idealize.ShloMosaic.Lib.StableHlo.Run

set_option maxRecDepth 16384

noncomputable section

namespace Cert.KernelIdeal.Takes2

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F]

/-- Contents carried to a buffer's type and back are the contents. -/
theorem ofBuf_toBuf {T : BufTy} (x : TRef sig T) (v : T.Contents (Elt F)) : x.ofBuf (x.toBuf v) = v := by
  obtain ⟨r, rfl, h2, h3⟩ := x
  rfl

set_option maxHeartbeats 1600000 in
/-- Layer 2: where the projection's buffer holds the reference's projection and the id buffer the source ids, all in
    range, the gathered rows are the reference's gather. -/
theorem take2_eq (Wp : Valuation τ sig (Elt F)) (x0 : (⟨S100000x64, .f32⟩ : BufTy).Contents (Elt F)) (x1 : (⟨S2x1600000, .i32⟩ : BufTy).Contents (Elt F)) (x2 : (⟨S64x64, .f32⟩ : BufTy).Contents (Elt F)) (x3 : (⟨S64, .f32⟩ : BufTy).Contents (Elt F)) (x4 : (⟨S64x64, .f32⟩ : BufTy).Contents (Elt F))
    (h1 : (TRef.of main_v1 : TRef sig ⟨S1600000, .i32⟩).ofBuf (Wp (Proc.devRef .tc main_v1)) = val_main_v1 (F := F) x1)
    (hp : (TRef.of main_v38 : TRef sig ⟨S100000x64, .f32⟩).ofBuf (Wp (Proc.devRef .tc main_v38)) = val_main_v49 (F := F) x0 x1 x2 x3 x4)
    (hs : ∀ e, IntOp.cmpi .sge (val_main_v1 (F := F) x1 e) 0#32 = 1#1 ∧ IntOp.cmpi .slt (val_main_v1 (F := F) x1 e) 100000#32 = 1#1) :
    (TRef.of main_v39 : TRef sig ⟨S1600000x64, .f32⟩).ofBuf (StableHlo.after hostOps3 Wp (Proc.devRef .tc main_v39))
      = val_main_v78 (F := F) x0 x1 x2 x3 x4 := by
  after_results_simp
  simp only [ofBuf_toBuf]
  rw [h1, hp]
  have key := Cert.LibTakeFill.select_mask_eq (E := 1600000) (C := 64) (α := Elt F EltTy.f32) (val_main_v1 (F := F) x1) hs
    (by decide) (by decide) (by decide) (by decide) (by decide) (by decide) (by decide) (by decide)
  unfold Cert.LibTakeFill.inRangeMask Cert.LibTakeFill.idxCol at key
  rw [key]
  rfl

end Cert.KernelIdeal.Takes2

end
-- ==== Proof.LibBlockDot.lean ====
/-
  A row block of a matrix product is the same rows of the whole product.

  The kernel multiplies a block of 5000 rows of `X` (rows r0 … r0 + 4999, narrowed to bf16: the identity on the extended
  reals) by a copy of the whole `W` (likewise narrowed) into a zero accumulator; the reference contracts the whole `X` with `W` in one `dot_general`.
  Entry (r, c) of the block product is ∑ₖ X[r0 + r, k] · W[k, c], which is entry (r0 + r, c) of the whole product.
-/
import proofs.«414285_j48490180772147_1_alg».proof.Proof.Gen.KernelIdeal
import proofs.«414285_j48490180772147_1_alg».proof.Proof.Gen.ReferenceIdeal
import Idealize.ShloMosaic.Lib.ValueIdx
import Idealize.ShloMosaic.PureOps.Ideal.Laws

namespace Cert.LibBlockDot

open Idealize.ShloMosaic

/-! ### `Cert.KernelIdeal.dot_S5000x64_S64x64_S5000x64_1_0_0_1_n_n`: the operand indices by coordinates

  The left operand is read at (output row, k), the right operand at (k, output column). -/

theorem lhs_k64_0 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx i q 0).val = (i 0).val := by
  unfold DotDims.lhsIdx
  rw [dif_neg (show ¬(0 : Fin Cert.KernelIdeal.S5000x64.rank) ∈ Cert.KernelIdeal.dot_S5000x64_S64x64_S5000x64_1_0_0_1_n_n.lhsBatch by decide), dif_pos (show (0 : Fin Cert.KernelIdeal.S5000x64.rank) ∈ Cert.KernelIdeal.dot_S5000x64_S64x64_S5000x64_1_0_0_1_n_n.lhsNonContracting by decide)]
  rfl
theorem lhs_k64_1 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.lhsIdx i q 1).val = (q ⟨0, by decide⟩).val :=
  Cert.KernelIdeal.dot_S5000x64_S64x64_S5000x64_1_0_0_1_n_n.lhsIdx_val_of_single rfl i q
theorem rhs_k64_0 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx i q 0).val = (q ⟨0, by decide⟩).val :=
  Cert.KernelIdeal.dot_S5000x64_S64x64_S5000x64_1_0_0_1_n_n.rhsIdx_val_of_single rfl i q
theorem rhs_k64_1 (i : Cert.KernelIdeal.S5000x64.Idx) (q : Cert.KernelIdeal.dot_S5000x64_S64x64_S5000x64_1_0_0_1_n_n.contr.Idx) :
    (Cert.KernelIdeal.dot_S5000x64_S64x64_S5000x64_1_0_0_1_n_n.rhsIdx i q 1).val = (i 1).val := by
  unfold DotDims.rhsIdx
  rw [dif_neg (show ¬(1 : Fin Cert.KernelIdeal.S64x64.rank) ∈ Cert.KernelIdeal.dot_S5000x64_S64x64_S5000x64_1_0_0_1_n_n.rhsBatch by decide), dif_pos (show (1 : Fin Cert.KernelIdeal.S64x64.rank) ∈ Cert.KernelIdeal.dot_S5000x64_S64x64_S5000x64_1_0_0_1_n_n.rhsNonContracting by decide)]
  rfl
/-- The left operand's index at output index `i` and contraction coordinate `k`: (row of `i`, `k`). -/
abbrev lidx_k64 (i : Cert.KernelIdeal.S5000x64.Idx) (k : Fin 64) : Cert.KernelIdeal.S5000x64.Idx := fun a => match a with
  | ⟨0, _⟩ => ⟨(i 0).val, (i 0).isLt⟩
  | ⟨1, _⟩ => ⟨k.val, k.isLt⟩
/-- The right operand's index at output index `i` and contraction coordinate `k`: (`k`, column of `i`). -/
abbrev ridx_k64 (i : Cert.KernelIdeal.S5000x64.Idx) (k : Fin 64) : Cert.KernelIdeal.S64x64.Idx := fun a => match a with
  | ⟨0, _⟩ => ⟨k.val, k.isLt⟩
  | ⟨1, _⟩ => ⟨(i 1).val, (i 1).isLt⟩
theorem lidx_k64_eq (i : Cert.KernelIdeal.S5000x64.Idx) (k : Fin 64) :
    Cert.KernelIdeal.dot_S5000x64_S64x64_S5000x64_1_0_0_1_n_n.lhsIdx i ((ValueIdx.contrEquiv1 Cert.KernelIdeal.dot_S5000x64_S64x64_S5000x64_1_0_0_1_n_n 64 rfl rfl).symm k) = lidx_k64 i k := by
  have hk := ValueIdx.contrEquiv1_symm_val Cert.KernelIdeal.dot_S5000x64_S64x64_S5000x64_1_0_0_1_n_n 64 rfl rfl k
  exact funext fun a => Fin.ext (by
    match a with
    | ⟨0, _⟩ => exact lhs_k64_0 _ _
    | ⟨1, _⟩ => exact (lhs_k64_1 _ _).trans hk)
theorem ridx_k64_eq (i : Cert.KernelIdeal.S5000x64.Idx) (k : Fin 64) :
    Cert.KernelIdeal.dot_S5000x64_S64x64_S5000x64_1_0_0_1_n_n.rhsIdx i ((ValueIdx.contrEquiv1 Cert.KernelIdeal.dot_S5000x64_S64x64_S5000x64_1_0_0_1_n_n 64 rfl rfl).symm k) = ridx_k64 i k := by
  have hk := ValueIdx.contrEquiv1_symm_val Cert.KernelIdeal.dot_S5000x64_S64x64_S5000x64_1_0_0_1_n_n 64 rfl rfl k
  exact funext fun a => Fin.ext (by
    match a with
    | ⟨0, _⟩ => exact (rhs_k64_0 _ _).trans hk
    | ⟨1, _⟩ => exact rhs_k64_1 _ _)

/-! ### `Cert.ReferenceIdeal.dot_S100000x64_S64x64_S100000x64_1_0_0_1_n_n`: the operand indices by coordinates

  The left operand is read at (output row, k), the right operand at (k, output column). -/

theorem lhs_r64_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem lhs_r64_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhs_r64_0 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhs_r64_1 (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl
/-- The left operand's index at output index `i` and contraction coordinate `k`: (row of `i`, `k`). -/
abbrev lidx_r64 (i : Cert.ReferenceIdeal.S100000x64.Idx) (k : Fin 64) : Cert.ReferenceIdeal.S100000x64.Idx := fun a => match a with
  | ⟨0, _⟩ => ⟨(i 0).val, (i 0).isLt⟩
  | ⟨1, _⟩ => ⟨k.val, k.isLt⟩
/-- The right operand's index at output index `i` and contraction coordinate `k`: (`k`, column of `i`). -/
abbrev ridx_r64 (i : Cert.ReferenceIdeal.S100000x64.Idx) (k : Fin 64) : Cert.ReferenceIdeal.S64x64.Idx := fun a => match a with
  | ⟨0, _⟩ => ⟨k.val, k.isLt⟩
  | ⟨1, _⟩ => ⟨(i 1).val, (i 1).isLt⟩
theorem lidx_r64_eq (i : Cert.ReferenceIdeal.S100000x64.Idx) (k : Fin 64) :
    Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = lidx_r64 i k := by
  have hk := ValueIdx.contrEquiv1_symm_val Cert.ReferenceIdeal.dot_S100000x64_S64x64_S100000x64_1_0_0_1_n_n 64 rfl rfl k
  exact funext fun a => Fin.ext (by
    match a with
    | ⟨0, _⟩ => exact lhs_r64_0 _ _
    | ⟨1, _⟩ => exact (lhs_r64_1 _ _).trans hk)
theorem ridx_r64_eq (i : Cert.ReferenceIdeal.S100000x64.Idx) (k : Fin 64) :
    Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = ridx_r64 i k := by
  have hk := ValueIdx.contrEquiv1_symm_val Cert.ReferenceIdeal.dot_S100000x64_S64x64_S100000x64_1_0_0_1_n_n 64 rfl rfl k
  exact funext fun a => Fin.ext (by
    match a with
    | ⟨0, _⟩ => exact (rhs_r64_0 _ _).trans hk
    | ⟨1, _⟩ => exact rhs_r64_1 _ _)

/-- The block product into a zero accumulator, at an index: the sum over the 64 contraction coordinates. -/
theorem block_k64_apply (a : FVec Ideal Cert.KernelIdeal.S5000x64 .bf16) (b : FVec Ideal Cert.KernelIdeal.S64x64 .bf16) (j : Cert.KernelIdeal.S5000x64.Idx) :
    matmul (F := Ideal) Cert.KernelIdeal.dot_S5000x64_S64x64_S5000x64_1_0_0_1_n_n none a b (constant Cert.KernelIdeal.S5000x64 .f32 0x00000000#32) j
      = ∑ k : Fin 64, a (lidx_k64 j k) * b (ridx_k64 j k) := by
  show FloatOps.matmul Cert.KernelIdeal.dot_S5000x64_S64x64_S5000x64_1_0_0_1_n_n none a b (constant Cert.KernelIdeal.S5000x64 .f32 0x00000000#32) j = _
  rw [Ideal.matmul_constant_zero_apply, ← Equiv.sum_comp (ValueIdx.contrEquiv1 Cert.KernelIdeal.dot_S5000x64_S64x64_S5000x64_1_0_0_1_n_n 64 rfl rfl).symm]
  refine Finset.sum_congr rfl fun k _ => ?_
  rw [lidx_k64_eq, ridx_k64_eq]

/-- The whole product, at an index: the sum over the 64 contraction coordinates. -/
theorem whole_r64_apply (x : FVec Ideal Cert.ReferenceIdeal.S100000x64 .f32) (w : FVec Ideal Cert.ReferenceIdeal.S64x64 .f32) (i : Cert.ReferenceIdeal.S100000x64.Idx) :
    Host.dotGeneral (F := Ideal) (φ₁ := .f32) (φ₂ := .f32) Cert.ReferenceIdeal.dot_S100000x64_S64x64_S100000x64_1_0_0_1_n_n none x w i
      = ∑ k : Fin 64, x (lidx_r64 i k) * w (ridx_r64 i k) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  rw [lidx_r64_eq, ridx_r64_eq]

/-- 64 output columns: `[5000, 64] · [64, 64]` against `[100000, 64] · [64, 64]`. -/
theorem matmul64_rows (X : Cert.ReferenceIdeal.S100000x64.Idx → EReal) (W : Cert.KernelIdeal.S64x64.Idx → EReal)
    (xb : Cert.KernelIdeal.S5000x64.Idx → EReal) (r0 : Nat)
    (hxb : ∀ (y : Cert.KernelIdeal.S5000x64.Idx) (k : Cert.ReferenceIdeal.S100000x64.Idx),
      (k 0).val = r0 + (y 0).val → (k 1).val = (y 1).val → xb y = X k)
    (wb : Cert.KernelIdeal.S64x64.Idx → EReal)
    (hwb : ∀ (y : Cert.KernelIdeal.S64x64.Idx) (k : Cert.KernelIdeal.S64x64.Idx),
      (k 0).val = (y 0).val → (k 1).val = (y 1).val → wb y = W k)
    (hlt : FTy.bf16.bits < FTy.f32.bits)
    (j : Cert.KernelIdeal.S5000x64.Idx) (i : Cert.ReferenceIdeal.S100000x64.Idx)
    (hi0 : (i 0).val = r0 + (j 0).val) (hi1 : (i 1).val = (j 1).val) :
    matmul (F := Ideal) Cert.KernelIdeal.dot_S5000x64_S64x64_S5000x64_1_0_0_1_n_n none
        (truncf .bf16 (xb : FVec Ideal Cert.KernelIdeal.S5000x64 .f32) hlt) (truncf .bf16 (wb : FVec Ideal Cert.KernelIdeal.S64x64 .f32) hlt)
        (constant Cert.KernelIdeal.S5000x64 .f32 0x00000000#32) j
      = Host.dotGeneral (F := Ideal) (φ₁ := .f32) (φ₂ := .f32) Cert.ReferenceIdeal.dot_S100000x64_S64x64_S100000x64_1_0_0_1_n_n none
          (X : FVec Ideal Cert.ReferenceIdeal.S100000x64 .f32) (W : FVec Ideal Cert.ReferenceIdeal.S64x64 .f32) i := by
  rw [block_k64_apply, whole_r64_apply]
  refine Finset.sum_congr rfl fun k _ => ?_
  -- narrowing is the identity on the extended reals
  rw [ValueIdx.truncf_apply, ValueIdx.truncf_apply]
  -- the left factors: row r0 + (row of j) of X, column k
  have hl : xb (lidx_k64 j k) = X (lidx_r64 i k) := hxb _ _ hi0 rfl
  -- the right factors: entry (k, column) of W on both sides
  have hr : wb (ridx_k64 j k) = W (ridx_r64 i k) := hwb _ _ rfl hi1
  rw [hl, hr]

/-! ### `Cert.KernelIdeal.dot_S5000x64_S64x16_S5000x16_1_0_0_1_n_n`: the operand indices by coordinates

  The left operand is read at (output row, k), the right operand at (k, output column). -/

theorem lhs_k16_0 (i : Cert.KernelIdeal.S5000x16.Idx) (q : Cert.KernelIdeal.dot_S5000x64_S64x16_S5000x16_1_0_0_1_n_n.contr.Idx) :
    (Cert.KernelIdeal.dot_S5000x64_S64x16_S5000x16_1_0_0_1_n_n.lhsIdx i q 0).val = (i 0).val := by
  unfold DotDims.lhsIdx
  rw [dif_neg (show ¬(0 : Fin Cert.KernelIdeal.S5000x64.rank) ∈ Cert.KernelIdeal.dot_S5000x64_S64x16_S5000x16_1_0_0_1_n_n.lhsBatch by decide), dif_pos (show (0 : Fin Cert.KernelIdeal.S5000x64.rank) ∈ Cert.KernelIdeal.dot_S5000x64_S64x16_S5000x16_1_0_0_1_n_n.lhsNonContracting by decide)]
  rfl
theorem lhs_k16_1 (i : Cert.KernelIdeal.S5000x16.Idx) (q : Cert.KernelIdeal.dot_S5000x64_S64x16_S5000x16_1_0_0_1_n_n.contr.Idx) :
    (Cert.KernelIdeal.dot_S5000x64_S64x16_S5000x16_1_0_0_1_n_n.lhsIdx i q 1).val = (q ⟨0, by decide⟩).val :=
  Cert.KernelIdeal.dot_S5000x64_S64x16_S5000x16_1_0_0_1_n_n.lhsIdx_val_of_single rfl i q
theorem rhs_k16_0 (i : Cert.KernelIdeal.S5000x16.Idx) (q : Cert.KernelIdeal.dot_S5000x64_S64x16_S5000x16_1_0_0_1_n_n.contr.Idx) :
    (Cert.KernelIdeal.dot_S5000x64_S64x16_S5000x16_1_0_0_1_n_n.rhsIdx i q 0).val = (q ⟨0, by decide⟩).val :=
  Cert.KernelIdeal.dot_S5000x64_S64x16_S5000x16_1_0_0_1_n_n.rhsIdx_val_of_single rfl i q
theorem rhs_k16_1 (i : Cert.KernelIdeal.S5000x16.Idx) (q : Cert.KernelIdeal.dot_S5000x64_S64x16_S5000x16_1_0_0_1_n_n.contr.Idx) :
    (Cert.KernelIdeal.dot_S5000x64_S64x16_S5000x16_1_0_0_1_n_n.rhsIdx i q 1).val = (i 1).val := by
  unfold DotDims.rhsIdx
  rw [dif_neg (show ¬(1 : Fin Cert.KernelIdeal.S64x16.rank) ∈ Cert.KernelIdeal.dot_S5000x64_S64x16_S5000x16_1_0_0_1_n_n.rhsBatch by decide), dif_pos (show (1 : Fin Cert.KernelIdeal.S64x16.rank) ∈ Cert.KernelIdeal.dot_S5000x64_S64x16_S5000x16_1_0_0_1_n_n.rhsNonContracting by decide)]
  rfl
/-- The left operand's index at output index `i` and contraction coordinate `k`: (row of `i`, `k`). -/
abbrev lidx_k16 (i : Cert.KernelIdeal.S5000x16.Idx) (k : Fin 64) : Cert.KernelIdeal.S5000x64.Idx := fun a => match a with
  | ⟨0, _⟩ => ⟨(i 0).val, (i 0).isLt⟩
  | ⟨1, _⟩ => ⟨k.val, k.isLt⟩
/-- The right operand's index at output index `i` and contraction coordinate `k`: (`k`, column of `i`). -/
abbrev ridx_k16 (i : Cert.KernelIdeal.S5000x16.Idx) (k : Fin 64) : Cert.KernelIdeal.S64x16.Idx := fun a => match a with
  | ⟨0, _⟩ => ⟨k.val, k.isLt⟩
  | ⟨1, _⟩ => ⟨(i 1).val, (i 1).isLt⟩
theorem lidx_k16_eq (i : Cert.KernelIdeal.S5000x16.Idx) (k : Fin 64) :
    Cert.KernelIdeal.dot_S5000x64_S64x16_S5000x16_1_0_0_1_n_n.lhsIdx i ((ValueIdx.contrEquiv1 Cert.KernelIdeal.dot_S5000x64_S64x16_S5000x16_1_0_0_1_n_n 64 rfl rfl).symm k) = lidx_k16 i k := by
  have hk := ValueIdx.contrEquiv1_symm_val Cert.KernelIdeal.dot_S5000x64_S64x16_S5000x16_1_0_0_1_n_n 64 rfl rfl k
  exact funext fun a => Fin.ext (by
    match a with
    | ⟨0, _⟩ => exact lhs_k16_0 _ _
    | ⟨1, _⟩ => exact (lhs_k16_1 _ _).trans hk)
theorem ridx_k16_eq (i : Cert.KernelIdeal.S5000x16.Idx) (k : Fin 64) :
    Cert.KernelIdeal.dot_S5000x64_S64x16_S5000x16_1_0_0_1_n_n.rhsIdx i ((ValueIdx.contrEquiv1 Cert.KernelIdeal.dot_S5000x64_S64x16_S5000x16_1_0_0_1_n_n 64 rfl rfl).symm k) = ridx_k16 i k := by
  have hk := ValueIdx.contrEquiv1_symm_val Cert.KernelIdeal.dot_S5000x64_S64x16_S5000x16_1_0_0_1_n_n 64 rfl rfl k
  exact funext fun a => Fin.ext (by
    match a with
    | ⟨0, _⟩ => exact (rhs_k16_0 _ _).trans hk
    | ⟨1, _⟩ => exact rhs_k16_1 _ _)

/-! ### `Cert.ReferenceIdeal.dot_S100000x64_S64x16_S100000x16_1_0_0_1_n_n`: the operand indices by coordinates

  The left operand is read at (output row, k), the right operand at (k, output column). -/

theorem lhs_r16_0 (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x16_S100000x16_1_0_0_1_n_n.lhsBatch by decide), dif_pos (show (0 : Fin Cert.ReferenceIdeal.S100000x64.rank) ∈ Cert.ReferenceIdeal.dot_S100000x64_S64x16_S100000x16_1_0_0_1_n_n.lhsNonContracting by decide)]
  rfl
theorem lhs_r16_1 (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.lhsIdx i q 1).val = (q ⟨0, by decide⟩).val :=
  Cert.ReferenceIdeal.dot_S100000x64_S64x16_S100000x16_1_0_0_1_n_n.lhsIdx_val_of_single rfl i q
theorem rhs_r16_0 (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.rhsIdx i q 0).val = (q ⟨0, by decide⟩).val :=
  Cert.ReferenceIdeal.dot_S100000x64_S64x16_S100000x16_1_0_0_1_n_n.rhsIdx_val_of_single rfl i q
theorem rhs_r16_1 (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.rhsIdx i q 1).val = (i 1).val := by
  unfold DotDims.rhsIdx
  rw [dif_neg (show ¬(1 : Fin Cert.ReferenceIdeal.S64x16.rank) ∈ Cert.ReferenceIdeal.dot_S100000x64_S64x16_S100000x16_1_0_0_1_n_n.rhsBatch by decide), dif_pos (show (1 : Fin Cert.ReferenceIdeal.S64x16.rank) ∈ Cert.ReferenceIdeal.dot_S100000x64_S64x16_S100000x16_1_0_0_1_n_n.rhsNonContracting by decide)]
  rfl
/-- The left operand's index at output index `i` and contraction coordinate `k`: (row of `i`, `k`). -/
abbrev lidx_r16 (i : Cert.ReferenceIdeal.S100000x16.Idx) (k : Fin 64) : Cert.ReferenceIdeal.S100000x64.Idx := fun a => match a with
  | ⟨0, _⟩ => ⟨(i 0).val, (i 0).isLt⟩
  | ⟨1, _⟩ => ⟨k.val, k.isLt⟩
/-- The right operand's index at output index `i` and contraction coordinate `k`: (`k`, column of `i`). -/
abbrev ridx_r16 (i : Cert.ReferenceIdeal.S100000x16.Idx) (k : Fin 64) : Cert.ReferenceIdeal.S64x16.Idx := fun a => match a with
  | ⟨0, _⟩ => ⟨k.val, k.isLt⟩
  | ⟨1, _⟩ => ⟨(i 1).val, (i 1).isLt⟩
theorem lidx_r16_eq (i : Cert.ReferenceIdeal.S100000x16.Idx) (k : Fin 64) :
    Cert.ReferenceIdeal.dot_S100000x64_S64x16_S100000x16_1_0_0_1_n_n.lhsIdx i ((ValueIdx.contrEquiv1 Cert.ReferenceIdeal.dot_S100000x64_S64x16_S100000x16_1_0_0_1_n_n 64 rfl rfl).symm k) = lidx_r16 i k := by
  have hk := ValueIdx.contrEquiv1_symm_val Cert.ReferenceIdeal.dot_S100000x64_S64x16_S100000x16_1_0_0_1_n_n 64 rfl rfl k
  exact funext fun a => Fin.ext (by
    match a with
    | ⟨0, _⟩ => exact lhs_r16_0 _ _
    | ⟨1, _⟩ => exact (lhs_r16_1 _ _).trans hk)
theorem ridx_r16_eq (i : Cert.ReferenceIdeal.S100000x16.Idx) (k : Fin 64) :
    Cert.ReferenceIdeal.dot_S100000x64_S64x16_S100000x16_1_0_0_1_n_n.rhsIdx i ((ValueIdx.contrEquiv1 Cert.ReferenceIdeal.dot_S100000x64_S64x16_S100000x16_1_0_0_1_n_n 64 rfl rfl).symm k) = ridx_r16 i k := by
  have hk := ValueIdx.contrEquiv1_symm_val Cert.ReferenceIdeal.dot_S100000x64_S64x16_S100000x16_1_0_0_1_n_n 64 rfl rfl k
  exact funext fun a => Fin.ext (by
    match a with
    | ⟨0, _⟩ => exact (rhs_r16_0 _ _).trans hk
    | ⟨1, _⟩ => exact rhs_r16_1 _ _)

/-- The block product into a zero accumulator, at an index: the sum over the 64 contraction coordinates. -/
theorem block_k16_apply (a : FVec Ideal Cert.KernelIdeal.S5000x64 .bf16) (b : FVec Ideal Cert.KernelIdeal.S64x16 .bf16) (j : Cert.KernelIdeal.S5000x16.Idx) :
    matmul (F := Ideal) Cert.KernelIdeal.dot_S5000x64_S64x16_S5000x16_1_0_0_1_n_n none a b (constant Cert.KernelIdeal.S5000x16 .f32 0x00000000#32) j
      = ∑ k : Fin 64, a (lidx_k16 j k) * b (ridx_k16 j k) := by
  show FloatOps.matmul Cert.KernelIdeal.dot_S5000x64_S64x16_S5000x16_1_0_0_1_n_n none a b (constant Cert.KernelIdeal.S5000x16 .f32 0x00000000#32) j = _
  rw [Ideal.matmul_constant_zero_apply, ← Equiv.sum_comp (ValueIdx.contrEquiv1 Cert.KernelIdeal.dot_S5000x64_S64x16_S5000x16_1_0_0_1_n_n 64 rfl rfl).symm]
  refine Finset.sum_congr rfl fun k _ => ?_
  rw [lidx_k16_eq, ridx_k16_eq]

/-- The whole product, at an index: the sum over the 64 contraction coordinates. -/
theorem whole_r16_apply (x : FVec Ideal Cert.ReferenceIdeal.S100000x64 .f32) (w : FVec Ideal Cert.ReferenceIdeal.S64x16 .f32) (i : Cert.ReferenceIdeal.S100000x16.Idx) :
    Host.dotGeneral (F := Ideal) (φ₁ := .f32) (φ₂ := .f32) Cert.ReferenceIdeal.dot_S100000x64_S64x16_S100000x16_1_0_0_1_n_n none x w i
      = ∑ k : Fin 64, x (lidx_r16 i k) * w (ridx_r16 i k) := by
  simp only [Host.dotGeneral]
  rw [Ideal.dotGeneral_apply, ← Equiv.sum_comp (ValueIdx.contrEquiv1 Cert.ReferenceIdeal.dot_S100000x64_S64x16_S100000x16_1_0_0_1_n_n 64 rfl rfl).symm]
  refine Finset.sum_congr rfl fun k _ => ?_
  rw [lidx_r16_eq, ridx_r16_eq]

/-- 16 output columns: `[5000, 64] · [64, 16]` against `[100000, 64] · [64, 16]`. -/
theorem matmul16_rows (X : Cert.ReferenceIdeal.S100000x64.Idx → EReal) (W : Cert.KernelIdeal.S64x16.Idx → EReal)
    (xb : Cert.KernelIdeal.S5000x64.Idx → EReal) (r0 : Nat)
    (hxb : ∀ (y : Cert.KernelIdeal.S5000x64.Idx) (k : Cert.ReferenceIdeal.S100000x64.Idx),
      (k 0).val = r0 + (y 0).val → (k 1).val = (y 1).val → xb y = X k)
    (wb : Cert.KernelIdeal.S64x16.Idx → EReal)
    (hwb : ∀ (y : Cert.KernelIdeal.S64x16.Idx) (k : Cert.KernelIdeal.S64x16.Idx),
      (k 0).val = (y 0).val → (k 1).val = (y 1).val → wb y = W k)
    (hlt : FTy.bf16.bits < FTy.f32.bits)
    (j : Cert.KernelIdeal.S5000x16.Idx) (i : Cert.ReferenceIdeal.S100000x16.Idx)
    (hi0 : (i 0).val = r0 + (j 0).val) (hi1 : (i 1).val = (j 1).val) :
    matmul (F := Ideal) Cert.KernelIdeal.dot_S5000x64_S64x16_S5000x16_1_0_0_1_n_n none
        (truncf .bf16 (xb : FVec Ideal Cert.KernelIdeal.S5000x64 .f32) hlt) (truncf .bf16 (wb : FVec Ideal Cert.KernelIdeal.S64x16 .f32) hlt)
        (constant Cert.KernelIdeal.S5000x16 .f32 0x00000000#32) j
      = Host.dotGeneral (F := Ideal) (φ₁ := .f32) (φ₂ := .f32) Cert.ReferenceIdeal.dot_S100000x64_S64x16_S100000x16_1_0_0_1_n_n none
          (X : FVec Ideal Cert.ReferenceIdeal.S100000x64 .f32) (W : FVec Ideal Cert.ReferenceIdeal.S64x16 .f32) i := by
  rw [block_k16_apply, whole_r16_apply]
  refine Finset.sum_congr rfl fun k _ => ?_
  -- narrowing is the identity on the extended reals
  rw [ValueIdx.truncf_apply, ValueIdx.truncf_apply]
  -- the left factors: row r0 + (row of j) of X, column k
  have hl : xb (lidx_k16 j k) = X (lidx_r16 i k) := hxb _ _ hi0 rfl
  -- the right factors: entry (k, column) of W on both sides
  have hr : wb (ridx_k16 j k) = W (ridx_r16 i k) := hwb _ _ rfl hi1
  rw [hl, hr]

end Cert.LibBlockDot
-- ==== Proof.RegionMatmul0.lean ====
/-
  Region 0, a dense projection: after the pipeline's run the output array `main_v27` is the whole product of the
  [100000, 64] array `main_arg0` and the [64, 64] array `main_arg2` the region finds, as the reference's `dot_general`.

  Point `t` of the 20-point grid multiplies rows 5000·t … 5000·t + 4999 of the left array by the whole right array and
  writes the product back through the same rows of the output; the 20 row blocks tile the 100000 rows.
-/
import proofs.«414285_j48490180772147_1_alg».proof.Proof.Gen.KernelIdeal.Frame
import proofs.«414285_j48490180772147_1_alg».proof.Proof.LibBlockDot
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product of the two arrays the region finds. -/
abbrev prod (c : Dev nD) : S100000x64.Idx → EReal :=
  Host.dotGeneral (F := Ideal) (φ₁ := .f32) (φ₂ := .f32) Cert.ReferenceIdeal.dot_S100000x64_S64x64_S100000x64_1_0_0_1_n_n none
    (V c main_arg0 : S100000x64.Idx → EReal) (V c main_arg2 : S64x64.Idx → EReal)

/-- The printed index maps over the grid: the left and output windows sit at row block `t`, the right window at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  obtain ⟨e0, e1, e2, e3, e4, e5⟩ := idx_facts t
  funext j
  show k0_pay1 (iblk0 V c 0 t) (iblk0 V c 1 t) j = prod V c (((cfg0.win 2).blk t).view.emb j)
  unfold k0_pay1
  refine Cert.LibBlockDot.matmul64_rows (V c main_arg0) (V c main_arg2) (iblk0 V c 0 t) (5000 * t.val) ?_ (iblk0 V c 1 t) ?_ _ j _ ?_ ?_
  · intro y k hk0 hk1
    show V c main_arg0 (((cfg0.win 0).blk t).view.emb y) = V c main_arg0 k
    refine congrArg _ (funext fun a => Fin.ext ?_)
    match a with
    | ⟨0, _⟩ => show win0_0.index t (0 : Fin 2) * 5000 + 1 * (y 0).val = (k 0).val; rw [e0, hk0]; omega
    | ⟨1, _⟩ => show win0_0.index t (1 : Fin 2) * 64 + 1 * (y 1).val = (k 1).val; rw [e1, hk1]; omega
  · intro y k hk0 hk1
    show V c main_arg2 (((cfg0.win 1).blk t).view.emb y) = V c main_arg2 k
    refine congrArg _ (funext fun a => Fin.ext ?_)
    match a with
    | ⟨0, _⟩ => show win0_1.index t (0 : Fin 2) * 64 + 1 * (y 0).val = (k 0).val; rw [e2, hk0]; omega
    | ⟨1, _⟩ => show win0_1.index t (1 : Fin 2) * 64 + 1 * (y 1).val = (k 1).val; rw [e3, hk1]; omega
  · show win0_2.index t (0 : Fin 2) * 5000 + 1 * (j 0).val = 5000 * t.val + (j 0).val
    rw [e4]; omega
  · show win0_2.index t (1 : Fin 2) * 64 + 1 * (j 1).val = (j 1).val
    rw [e5]; omega

/-- Every row of the output array is in some point's block: row `r` in the block of point `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  refine ⟨t, flush0_2 t, ?_⟩
  obtain ⟨-, -, -, -, e4, e5⟩ := idx_facts t
  show i ∈ ((View.whole main_v27).slice (win0_2.rect t)).set
  rw [View.set_slice_whole, Rect.mem_set_unit]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

/-- THE REGION'S VALUE: the output array after the run is the whole product. -/
theorem value (c : Dev nD) : (dat0 V c).arrAt 2 cfg0.N = prod V c :=
  (dat0 V c).arrAt_eq_of_cover 2 (prod V c) (fun t _ => flushed_eq V c t) cover

end Cert.KernelIdeal.Region0

end
-- ==== Proof.RegionCombine1.lean ====
/-
  Region 1, the combine of one graph-convolution layer: after the pipeline's run the output array `main_v37` is
  relu(agg + h · d + b) of the four arrays the region finds — the scattered sum `agg` and the projection `h` (both
  [100000, 64]), the per-node factor `d` as a column [100000, 1] and the bias `b` as a row [1, 64] —, written with the
  host's whole-array operations: the column and the row broadcast to [100000, 64], the maximum with the zero splat.

  Point `t` of the 20-point grid reads rows 5000·t … 5000·t + 4999 of `agg`, `h` and `d` and the whole row `b`, and writes
  the same rows of the output; the 20 row blocks tile the 100000 rows.
-/
import proofs.«414285_j48490180772147_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- relu(agg + h · d + b) of the arrays the region finds, in the host's whole-array operations. -/
abbrev combined (hcol : S100000x1.BroadcastsInDim S100000x64 ![0, 1]) (hrow : S1x64.BroadcastsInDim S100000x64 ![0, 1])
    (h0 : S_.BroadcastsInDim S100000x64 (![] : Fin 0 → Fin S100000x64.rank)) (c : Dev nD) : S100000x64.Idx → EReal :=
  maximumf (F := Ideal)
    (addf (addf (V c main_v34 : FVec Ideal S100000x64 .f32)
        (mulf (V c main_v27 : FVec Ideal S100000x64 .f32) (broadcastInDim S100000x64 ![0, 1] hcol (V c main_v36 : FVec Ideal S100000x1 .f32))))
      (broadcastInDim S100000x64 ![0, 1] hrow (V c main_v35 : FVec Ideal S1x64 .f32)))
    (broadcastInDim S100000x64 ![] h0 (constant (F := Ideal) S_ .f32 0x00000000#32))

/-- The printed index maps over the grid: windows 0, 1, 2 and the output window 4 sit at row block `t`, the bias window at its one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's arithmetic at one element `j` of a row block that starts at row `r`: where the four input blocks hold the
    arrays' entries at the rows shifted by `r` (the bias block the whole row), the payload's element is the combined
    array's element at row `r + j₀`, same column. -/
theorem pay_eq (A0 A1 : FVec Ideal S100000x64 .f32) (A2 : FVec Ideal S100000x1 .f32) (A3 : FVec Ideal S1x64 .f32)
    (x0 x1 : Vec Ideal S5000x64 .f32) (x2 : Vec Ideal S5000x1 .f32) (x3 : Vec Ideal S1x64 .f32) (r : Nat)
    (hx0 : ∀ (y : S5000x64.Idx) (k : S100000x64.Idx), (k 0).val = r + (y 0).val → (k 1).val = (y 1).val → x0 y = A0 k)
    (hx1 : ∀ (y : S5000x64.Idx) (k : S100000x64.Idx), (k 0).val = r + (y 0).val → (k 1).val = (y 1).val → x1 y = A1 k)
    (hx2 : ∀ (y : S5000x1.Idx) (k : S100000x1.Idx), (k 0).val = r + (y 0).val → (k 1).val = (y 1).val → x2 y = A2 k)
    (hx3 : ∀ (y k : S1x64.Idx), (k 0).val = (y 0).val → (k 1).val = (y 1).val → x3 y = A3 k)
    (hcol : S100000x1.BroadcastsInDim S100000x64 ![0, 1]) (hrow : S1x64.BroadcastsInDim S100000x64 ![0, 1])
    (h0 : S_.BroadcastsInDim S100000x64 (![] : Fin 0 → Fin S100000x64.rank))
    (j : S5000x64.Idx) (i : S100000x64.Idx) (hi0 : (i 0).val = r + (j 0).val) (hi1 : (i 1).val = (j 1).val) :
    k1_pay1 (F := Ideal) x0 x1 x2 x3 j =
      maximumf (F := Ideal)
        (addf (addf A0 (mulf A1 (broadcastInDim S100000x64 ![0, 1] hcol A2))) (broadcastInDim S100000x64 ![0, 1] hrow A3))
        (broadcastInDim S100000x64 ![] h0 (constant (F := Ideal) S_ .f32 0x00000000#32)) i := by
  have hj0 : (j 0).val < 5000 := (j 0).isLt
  have hj1 : (j 1).val < 64 := (j 1).isLt
  have hI0 : (i 0).val < 100000 := (i 0).isLt
  have hI1 : (i 1).val < 64 := (i 1).isLt
  -- the two full blocks: entry (j₀, j₁) of the block is entry (r + j₀, j₁) of the array
  have e0 : shapeCast S5000x64 x0 shapeCasts_S5000x64_S5000x64 j = A0 i :=
    (congrFun (shapeCast_self x0 _) j).trans (hx0 j i hi0 hi1)
  have e1 : shapeCast S5000x64 x1 shapeCasts_S5000x64_S5000x64 j = A1 i :=
    (congrFun (shapeCast_self x1 _) j).trans (hx1 j i hi0 hi1)
  -- the column: the block's entry (j₀, 0) is the array's entry (r + j₀, 0)
  have e2 : broadcastTo S5000x64 (shapeCast S5000x1 x2 shapeCasts_S5000x1_S5000x1) broadcasts_S5000x1_S5000x64 j
      = broadcastInDim S100000x64 ![0, 1] hcol A2 i := by
    rw [shapeCast_self]
    refine (broadcastTo_apply x2 _ j (ValueIdx.ix2 ⟨(j 0).val, hj0⟩ ⟨0, Nat.one_pos⟩) (fun a => match a with
      | ⟨0, _⟩ => by show (j 0).val = if (5000 : Nat) = 1 then 0 else (j 0).val; rfl
      | ⟨1, _⟩ => by show (0 : Nat) = if (1 : Nat) = 1 then 0 else (j 1).val; rfl)).trans ?_
    refine Eq.trans ?_ (broadcastInDim_apply ![0, 1] hcol A2 i (ValueIdx.ix2 ⟨(i 0).val, hI0⟩ ⟨0, Nat.one_pos⟩) (fun a => match a with
      | ⟨0, _⟩ => by show (i 0).val = if (100000 : Nat) = 1 then 0 else (i 0).val; rfl
      | ⟨1, _⟩ => by show (0 : Nat) = if (1 : Nat) = 1 then 0 else (i 1).val; rfl)).symm
    exact hx2 _ _ hi0 rfl
  -- the row: the block's entry (0, j₁) is the array's entry (0, j₁)
  have e3 : broadcastTo S5000x64 (shapeCast S1x64 x3 shapeCasts_S1x64_S1x64) broadcasts_S1x64_S5000x64 j
      = broadcastInDim S100000x64 ![0, 1] hrow A3 i := by
    rw [shapeCast_self]
    refine (broadcastTo_apply x3 _ j (ValueIdx.ix2 ⟨0, Nat.one_pos⟩ ⟨(j 1).val, hj1⟩) (fun a => match a with
      | ⟨0, _⟩ => by show (0 : Nat) = if (1 : Nat) = 1 then 0 else (j 0).val; rfl
      | ⟨1, _⟩ => by show (j 1).val = if (64 : Nat) = 1 then 0 else (j 1).val; rfl)).trans ?_
    refine Eq.trans ?_ (broadcastInDim_apply ![0, 1] hrow A3 i (ValueIdx.ix2 ⟨0, Nat.one_pos⟩ ⟨(i 1).val, hI1⟩) (fun a => match a with
      | ⟨0, _⟩ => by show (0 : Nat) = if (1 : Nat) = 1 then 0 else (i 0).val; rfl
      | ⟨1, _⟩ => by show (i 1).val = if (64 : Nat) = 1 then 0 else (i 1).val; rfl)).symm
    exact hx3 _ _ rfl hi1
  -- both sides are max (a₀ + a₁ · a₂ + a₃) 0 of extended reals, operand by operand equal
  have key : ∀ (a0 a1 a2 a3 b0 b1 b2 b3 z : EReal), a0 = b0 → a1 = b1 → a2 = b2 → a3 = b3 →
      max (a0 + a1 * a2 + a3) z = max (b0 + b1 * b2 + b3) z := by
    intro a0 a1 a2 a3 b0 b1 b2 b3 z q0 q1 q2 q3
    rw [q0, q1, q2, q3]
  exact key _ _ _ _ _ _ _ _ _ e0 e1 e2 e3

/-- What point `t` writes back is block `t` of the combined array. -/
theorem flushed_eq (hcol hrow h0) (c : Dev nD) (t : Fin cfg1.N) :
    (dat1 V c).flushed 4 t = ((cfg1.win 4).blk t).view.read (Elt Ideal) (combined V hcol hrow h0 c) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz]
  obtain ⟨e00, e01, e10, e11, e20, e21, e30, e31, e40, e41⟩ := idx_facts t
  funext j
  show k1_pay1 (iblk1 V c 0 t) (iblk1 V c 1 t) (iblk1 V c 2 t) (iblk1 V c 3 t) j
    = combined V hcol hrow h0 c (((cfg1.win 4).blk t).view.emb j)
  refine pay_eq (V c main_v34 : FVec Ideal S100000x64 .f32) (V c main_v27 : FVec Ideal S100000x64 .f32)
    (V c main_v36 : FVec Ideal S100000x1 .f32) (V c main_v35 : FVec Ideal S1x64 .f32)
    (iblk1 V c 0 t) (iblk1 V c 1 t) (iblk1 V c 2 t) (iblk1 V c 3 t) (5000 * t.val) ?_ ?_ ?_ ?_ hcol hrow h0 j _ ?_ ?_
  · intro y k hk0 hk1
    show V c main_v34 (((cfg1.win 0).blk t).view.emb y) = V c main_v34 k
    refine congrArg _ (funext fun a => Fin.ext ?_)
    match a with
    | ⟨0, _⟩ => show win1_0.index t (0 : Fin 2) * 5000 + 1 * (y 0).val = (k 0).val; rw [e00, hk0]; omega
    | ⟨1, _⟩ => show win1_0.index t (1 : Fin 2) * 64 + 1 * (y 1).val = (k 1).val; rw [e01, hk1]; omega
  · intro y k hk0 hk1
    show V c main_v27 (((cfg1.win 1).blk t).view.emb y) = V c main_v27 k
    refine congrArg _ (funext fun a => Fin.ext ?_)
    match a with
    | ⟨0, _⟩ => show win1_1.index t (0 : Fin 2) * 5000 + 1 * (y 0).val = (k 0).val; rw [e10, hk0]; omega
    | ⟨1, _⟩ => show win1_1.index t (1 : Fin 2) * 64 + 1 * (y 1).val = (k 1).val; rw [e11, hk1]; omega
  · intro y k hk0 hk1
    show V c main_v36 (((cfg1.win 2).blk t).view.emb y) = V c main_v36 k
    refine congrArg _ (funext fun a => Fin.ext ?_)
    match a with
    | ⟨0, _⟩ => show win1_2.index t (0 : Fin 2) * 5000 + 1 * (y 0).val = (k 0).val; rw [e20, hk0]; omega
    | ⟨1, _⟩ => show win1_2.index t (1 : Fin 2) * 1 + 1 * (y 1).val = (k 1).val; rw [e21, hk1]; omega
  · intro y k hk0 hk1
    show V c main_v35 (((cfg1.win 3).blk t).view.emb y) = V c main_v35 k
    refine congrArg _ (funext fun a => Fin.ext ?_)
    match a with
    | ⟨0, _⟩ => show win1_3.index t (0 : Fin 2) * 1 + 1 * (y 0).val = (k 0).val; rw [e30, hk0]; omega
    | ⟨1, _⟩ => show win1_3.index t (1 : Fin 2) * 64 + 1 * (y 1).val = (k 1).val; rw [e31, hk1]; omega
  · show win1_4.index t (0 : Fin 2) * 5000 + 1 * (j 0).val = 5000 * t.val + (j 0).val
    rw [e40]; omega
  · show win1_4.index t (1 : Fin 2) * 64 + 1 * (j 1).val = (j 1).val
    rw [e41]; omega

/-- Every row of the output array is in some point's block. -/
theorem cover (i : S100000x64.Idx) : ∃ t : Fin cfg1.N, (cfg1.win 4).flush t = true ∧ i ∈ ((cfg1.win 4).blk t).view.set := by
  -- row `r` lies in the block of point `r / 5000`
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  refine ⟨t, flush1_4 t, ?_⟩
  obtain ⟨-, -, -, -, -, -, -, -, e40, e41⟩ := idx_facts t
  show i ∈ ((View.whole main_v37).slice (win1_4.rect t)).set
  rw [View.set_slice_whole, Rect.mem_set_unit]
  intro a
  match a with
  | ⟨0, _⟩ =>
    show win1_4.index t (0 : Fin 2) * 5000 ≤ (i 0).val ∧ (i 0).val < win1_4.index t (0 : Fin 2) * 5000 + 5000
    rw [e40, ht]; omega
  | ⟨1, _⟩ =>
    show win1_4.index t (1 : Fin 2) * 64 ≤ (i 1).val ∧ (i 1).val < win1_4.index t (1 : Fin 2) * 64 + 64
    rw [e41]; omega

/-- THE REGION'S VALUE: the output array after the run. -/
theorem value (hcol hrow h0) (c : Dev nD) : (dat1 V c).arrAt 4 cfg1.N = combined V hcol hrow h0 c :=
  (dat1 V c).arrAt_eq_of_cover 4 (combined V hcol hrow h0 c) (fun t _ => flushed_eq V hcol hrow h0 c t) cover

end Cert.KernelIdeal.Region1

end
-- ==== Proof.RegionMatmul2.lean ====
/-
  Region 2, a dense projection: after the pipeline's run the output array `main_v38` is the whole product of the
  [100000, 64] array `main_v37` and the [64, 64] array `main_arg4` the region finds, as the reference's `dot_general`.

  Point `t` of the 20-point grid multiplies rows 5000·t … 5000·t + 4999 of the left array by the whole right array and
  writes the product back through the same rows of the output; the 20 row blocks tile the 100000 rows.
-/
import proofs.«414285_j48490180772147_1_alg».proof.Proof.Gen.KernelIdeal.Frame
import proofs.«414285_j48490180772147_1_alg».proof.Proof.LibBlockDot
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product of the two arrays the region finds. -/
abbrev prod (c : Dev nD) : S100000x64.Idx → EReal :=
  Host.dotGeneral (F := Ideal) (φ₁ := .f32) (φ₂ := .f32) Cert.ReferenceIdeal.dot_S100000x64_S64x64_S100000x64_1_0_0_1_n_n none
    (V c main_v37 : S100000x64.Idx → EReal) (V c main_arg4 : S64x64.Idx → EReal)

/-- The printed index maps over the grid: the left and output windows sit at row block `t`, the right window at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed_eq (c : Dev nD) (t : Fin cfg2.N) :
    (dat2 V c).flushed 2 t = ((cfg2.win 2).blk t).view.read (Elt Ideal) (prod V c) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts t
  funext j
  show k2_pay1 (iblk2 V c 0 t) (iblk2 V c 1 t) j = prod V c (((cfg2.win 2).blk t).view.emb j)
  unfold k2_pay1
  simp only [shapeCast_self]
  refine Cert.LibBlockDot.matmul64_rows (V c main_v37) (V c main_arg4) (iblk2 V c 0 t) (5000 * t.val) ?_ (iblk2 V c 1 t) ?_ _ j _ ?_ ?_
  · intro y k hk0 hk1
    show V c main_v37 (((cfg2.win 0).blk t).view.emb y) = V c main_v37 k
    refine congrArg _ (funext fun a => Fin.ext ?_)
    match a with
    | ⟨0, _⟩ => show win2_0.index t (0 : Fin 2) * 5000 + 1 * (y 0).val = (k 0).val; rw [e0, hk0]; omega
    | ⟨1, _⟩ => show win2_0.index t (1 : Fin 2) * 64 + 1 * (y 1).val = (k 1).val; rw [e1, hk1]; omega
  · intro y k hk0 hk1
    show V c main_arg4 (((cfg2.win 1).blk t).view.emb y) = V c main_arg4 k
    refine congrArg _ (funext fun a => Fin.ext ?_)
    match a with
    | ⟨0, _⟩ => show win2_1.index t (0 : Fin 2) * 64 + 1 * (y 0).val = (k 0).val; rw [e2, hk0]; omega
    | ⟨1, _⟩ => show win2_1.index t (1 : Fin 2) * 64 + 1 * (y 1).val = (k 1).val; rw [e3, hk1]; omega
  · show win2_2.index t (0 : Fin 2) * 5000 + 1 * (j 0).val = 5000 * t.val + (j 0).val
    rw [e4]; omega
  · show win2_2.index t (1 : Fin 2) * 64 + 1 * (j 1).val = (j 1).val
    rw [e5]; omega

/-- Every row of the output array is in some point's block: row `r` in the block of point `r / 5000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  refine ⟨t, flush2_2 t, ?_⟩
  obtain ⟨-, -, -, -, e4, e5⟩ := idx_facts t
  show i ∈ ((View.whole main_v38).slice (win2_2.rect t)).set
  rw [View.set_slice_whole, Rect.mem_set_unit]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 64 ≤ (i 1).val ∧ (i 1).val < win2_2.index t (1 : Fin 2) * 64 + 64
    rw [e5]; omega

/-- THE REGION'S VALUE: the output array after the run is the whole product. -/
theorem value (c : Dev nD) : (dat2 V c).arrAt 2 cfg2.N = prod V c :=
  (dat2 V c).arrAt_eq_of_cover 2 (prod V c) (fun t _ => flushed_eq V c t) cover

end Cert.KernelIdeal.Region2

end
-- ==== Proof.RegionCombine3.lean ====
/-
  Region 3, the combine of one graph-convolution layer: after the pipeline's run the output array `main_v48` is
  relu(agg + h · d + b) of the four arrays the region finds — the scattered sum `agg` and the projection `h` (both
  [100000, 64]), the per-node factor `d` as a column [100000, 1] and the bias `b` as a row [1, 64] —, written with the
  host's whole-array operations: the column and the row broadcast to [100000, 64], the maximum with the zero splat.

  Point `t` of the 20-point grid reads rows 5000·t … 5000·t + 4999 of `agg`, `h` and `d` and the whole row `b`, and writes
  the same rows of the output; the 20 row blocks tile the 100000 rows.
-/
import proofs.«414285_j48490180772147_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- relu(agg + h · d + b) of the arrays the region finds, in the host's whole-array operations. -/
abbrev combined (hcol : S100000x1.BroadcastsInDim S100000x64 ![0, 1]) (hrow : S1x64.BroadcastsInDim S100000x64 ![0, 1])
    (h0 : S_.BroadcastsInDim S100000x64 (![] : Fin 0 → Fin S100000x64.rank)) (c : Dev nD) : S100000x64.Idx → EReal :=
  maximumf (F := Ideal)
    (addf (addf (V c main_v45 : FVec Ideal S100000x64 .f32)
        (mulf (V c main_v38 : FVec Ideal S100000x64 .f32) (broadcastInDim S100000x64 ![0, 1] hcol (V c main_v47 : FVec Ideal S100000x1 .f32))))
      (broadcastInDim S100000x64 ![0, 1] hrow (V c main_v46 : FVec Ideal S1x64 .f32)))
    (broadcastInDim S100000x64 ![] h0 (constant (F := Ideal) S_ .f32 0x00000000#32))

/-- The printed index maps over the grid: windows 0, 1, 2 and the output window 4 sit at row block `t`, the bias window at its one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's arithmetic at one element `j` of a row block that starts at row `r`: where the four input blocks hold the
    arrays' entries at the rows shifted by `r` (the bias block the whole row), the payload's element is the combined
    array's element at row `r + j₀`, same column. -/
theorem pay_eq (A0 A1 : FVec Ideal S100000x64 .f32) (A2 : FVec Ideal S100000x1 .f32) (A3 : FVec Ideal S1x64 .f32)
    (x0 x1 : Vec Ideal S5000x64 .f32) (x2 : Vec Ideal S5000x1 .f32) (x3 : Vec Ideal S1x64 .f32) (r : Nat)
    (hx0 : ∀ (y : S5000x64.Idx) (k : S100000x64.Idx), (k 0).val = r + (y 0).val → (k 1).val = (y 1).val → x0 y = A0 k)
    (hx1 : ∀ (y : S5000x64.Idx) (k : S100000x64.Idx), (k 0).val = r + (y 0).val → (k 1).val = (y 1).val → x1 y = A1 k)
    (hx2 : ∀ (y : S5000x1.Idx) (k : S100000x1.Idx), (k 0).val = r + (y 0).val → (k 1).val = (y 1).val → x2 y = A2 k)
    (hx3 : ∀ (y k : S1x64.Idx), (k 0).val = (y 0).val → (k 1).val = (y 1).val → x3 y = A3 k)
    (hcol : S100000x1.BroadcastsInDim S100000x64 ![0, 1]) (hrow : S1x64.BroadcastsInDim S100000x64 ![0, 1])
    (h0 : S_.BroadcastsInDim S100000x64 (![] : Fin 0 → Fin S100000x64.rank))
    (j : S5000x64.Idx) (i : S100000x64.Idx) (hi0 : (i 0).val = r + (j 0).val) (hi1 : (i 1).val = (j 1).val) :
    k3_pay1 (F := Ideal) x0 x1 x2 x3 j =
      maximumf (F := Ideal)
        (addf (addf A0 (mulf A1 (broadcastInDim S100000x64 ![0, 1] hcol A2))) (broadcastInDim S100000x64 ![0, 1] hrow A3))
        (broadcastInDim S100000x64 ![] h0 (constant (F := Ideal) S_ .f32 0x00000000#32)) i := by
  have hj0 : (j 0).val < 5000 := (j 0).isLt
  have hj1 : (j 1).val < 64 := (j 1).isLt
  have hI0 : (i 0).val < 100000 := (i 0).isLt
  have hI1 : (i 1).val < 64 := (i 1).isLt
  -- the two full blocks: entry (j₀, j₁) of the block is entry (r + j₀, j₁) of the array
  have e0 : shapeCast S5000x64 x0 shapeCasts_S5000x64_S5000x64 j = A0 i :=
    (congrFun (shapeCast_self x0 _) j).trans (hx0 j i hi0 hi1)
  have e1 : shapeCast S5000x64 x1 shapeCasts_S5000x64_S5000x64 j = A1 i :=
    (congrFun (shapeCast_self x1 _) j).trans (hx1 j i hi0 hi1)
  -- the column: the block's entry (j₀, 0) is the array's entry (r + j₀, 0)
  have e2 : broadcastTo S5000x64 (shapeCast S5000x1 x2 shapeCasts_S5000x1_S5000x1) broadcasts_S5000x1_S5000x64 j
      = broadcastInDim S100000x64 ![0, 1] hcol A2 i := by
    rw [shapeCast_self]
    refine (broadcastTo_apply x2 _ j (ValueIdx.ix2 ⟨(j 0).val, hj0⟩ ⟨0, Nat.one_pos⟩) (fun a => match a with
      | ⟨0, _⟩ => by show (j 0).val = if (5000 : Nat) = 1 then 0 else (j 0).val; rfl
      | ⟨1, _⟩ => by show (0 : Nat) = if (1 : Nat) = 1 then 0 else (j 1).val; rfl)).trans ?_
    refine Eq.trans ?_ (broadcastInDim_apply ![0, 1] hcol A2 i (ValueIdx.ix2 ⟨(i 0).val, hI0⟩ ⟨0, Nat.one_pos⟩) (fun a => match a with
      | ⟨0, _⟩ => by show (i 0).val = if (100000 : Nat) = 1 then 0 else (i 0).val; rfl
      | ⟨1, _⟩ => by show (0 : Nat) = if (1 : Nat) = 1 then 0 else (i 1).val; rfl)).symm
    exact hx2 _ _ hi0 rfl
  -- the row: the block's entry (0, j₁) is the array's entry (0, j₁)
  have e3 : broadcastTo S5000x64 (shapeCast S1x64 x3 shapeCasts_S1x64_S1x64) broadcasts_S1x64_S5000x64 j
      = broadcastInDim S100000x64 ![0, 1] hrow A3 i := by
    rw [shapeCast_self]
    refine (broadcastTo_apply x3 _ j (ValueIdx.ix2 ⟨0, Nat.one_pos⟩ ⟨(j 1).val, hj1⟩) (fun a => match a with
      | ⟨0, _⟩ => by show (0 : Nat) = if (1 : Nat) = 1 then 0 else (j 0).val; rfl
      | ⟨1, _⟩ => by show (j 1).val = if (64 : Nat) = 1 then 0 else (j 1).val; rfl)).trans ?_
    refine Eq.trans ?_ (broadcastInDim_apply ![0, 1] hrow A3 i (ValueIdx.ix2 ⟨0, Nat.one_pos⟩ ⟨(i 1).val, hI1⟩) (fun a => match a with
      | ⟨0, _⟩ => by show (0 : Nat) = if (1 : Nat) = 1 then 0 else (i 0).val; rfl
      | ⟨1, _⟩ => by show (i 1).val = if (64 : Nat) = 1 then 0 else (i 1).val; rfl)).symm
    exact hx3 _ _ rfl hi1
  -- both sides are max (a₀ + a₁ · a₂ + a₃) 0 of extended reals, operand by operand equal
  have key : ∀ (a0 a1 a2 a3 b0 b1 b2 b3 z : EReal), a0 = b0 → a1 = b1 → a2 = b2 → a3 = b3 →
      max (a0 + a1 * a2 + a3) z = max (b0 + b1 * b2 + b3) z := by
    intro a0 a1 a2 a3 b0 b1 b2 b3 z q0 q1 q2 q3
    rw [q0, q1, q2, q3]
  exact key _ _ _ _ _ _ _ _ _ e0 e1 e2 e3

/-- What point `t` writes back is block `t` of the combined array. -/
theorem flushed_eq (hcol hrow h0) (c : Dev nD) (t : Fin cfg3.N) :
    (dat3 V c).flushed 4 t = ((cfg3.win 4).blk t).view.read (Elt Ideal) (combined V hcol hrow h0 c) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S1x64) hz]
  obtain ⟨e00, e01, e10, e11, e20, e21, e30, e31, e40, e41⟩ := idx_facts t
  funext j
  show k3_pay1 (iblk3 V c 0 t) (iblk3 V c 1 t) (iblk3 V c 2 t) (iblk3 V c 3 t) j
    = combined V hcol hrow h0 c (((cfg3.win 4).blk t).view.emb j)
  refine pay_eq (V c main_v45 : FVec Ideal S100000x64 .f32) (V c main_v38 : FVec Ideal S100000x64 .f32)
    (V c main_v47 : FVec Ideal S100000x1 .f32) (V c main_v46 : FVec Ideal S1x64 .f32)
    (iblk3 V c 0 t) (iblk3 V c 1 t) (iblk3 V c 2 t) (iblk3 V c 3 t) (5000 * t.val) ?_ ?_ ?_ ?_ hcol hrow h0 j _ ?_ ?_
  · intro y k hk0 hk1
    show V c main_v45 (((cfg3.win 0).blk t).view.emb y) = V c main_v45 k
    refine congrArg _ (funext fun a => Fin.ext ?_)
    match a with
    | ⟨0, _⟩ => show win3_0.index t (0 : Fin 2) * 5000 + 1 * (y 0).val = (k 0).val; rw [e00, hk0]; omega
    | ⟨1, _⟩ => show win3_0.index t (1 : Fin 2) * 64 + 1 * (y 1).val = (k 1).val; rw [e01, hk1]; omega
  · intro y k hk0 hk1
    show V c main_v38 (((cfg3.win 1).blk t).view.emb y) = V c main_v38 k
    refine congrArg _ (funext fun a => Fin.ext ?_)
    match a with
    | ⟨0, _⟩ => show win3_1.index t (0 : Fin 2) * 5000 + 1 * (y 0).val = (k 0).val; rw [e10, hk0]; omega
    | ⟨1, _⟩ => show win3_1.index t (1 : Fin 2) * 64 + 1 * (y 1).val = (k 1).val; rw [e11, hk1]; omega
  · intro y k hk0 hk1
    show V c main_v47 (((cfg3.win 2).blk t).view.emb y) = V c main_v47 k
    refine congrArg _ (funext fun a => Fin.ext ?_)
    match a with
    | ⟨0, _⟩ => show win3_2.index t (0 : Fin 2) * 5000 + 1 * (y 0).val = (k 0).val; rw [e20, hk0]; omega
    | ⟨1, _⟩ => show win3_2.index t (1 : Fin 2) * 1 + 1 * (y 1).val = (k 1).val; rw [e21, hk1]; omega
  · intro y k hk0 hk1
    show V c main_v46 (((cfg3.win 3).blk t).view.emb y) = V c main_v46 k
    refine congrArg _ (funext fun a => Fin.ext ?_)
    match a with
    | ⟨0, _⟩ => show win3_3.index t (0 : Fin 2) * 1 + 1 * (y 0).val = (k 0).val; rw [e30, hk0]; omega
    | ⟨1, _⟩ => show win3_3.index t (1 : Fin 2) * 64 + 1 * (y 1).val = (k 1).val; rw [e31, hk1]; omega
  · show win3_4.index t (0 : Fin 2) * 5000 + 1 * (j 0).val = 5000 * t.val + (j 0).val
    rw [e40]; omega
  · show win3_4.index t (1 : Fin 2) * 64 + 1 * (j 1).val = (j 1).val
    rw [e41]; omega

/-- Every row of the output array is in some point's block. -/
theorem cover (i : S100000x64.Idx) : ∃ t : Fin cfg3.N, (cfg3.win 4).flush t = true ∧ i ∈ ((cfg3.win 4).blk t).view.set := by
  -- row `r` lies in the block of point `r / 5000`
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  refine ⟨t, flush3_4 t, ?_⟩
  obtain ⟨-, -, -, -, -, -, -, -, e40, e41⟩ := idx_facts t
  show i ∈ ((View.whole main_v48).slice (win3_4.rect t)).set
  rw [View.set_slice_whole, Rect.mem_set_unit]
  intro a
  match a with
  | ⟨0, _⟩ =>
    show win3_4.index t (0 : Fin 2) * 5000 ≤ (i 0).val ∧ (i 0).val < win3_4.index t (0 : Fin 2) * 5000 + 5000
    rw [e40, ht]; omega
  | ⟨1, _⟩ =>
    show win3_4.index t (1 : Fin 2) * 64 ≤ (i 1).val ∧ (i 1).val < win3_4.index t (1 : Fin 2) * 64 + 64
    rw [e41]; omega

/-- THE REGION'S VALUE: the output array after the run. -/
theorem value (hcol hrow h0) (c : Dev nD) : (dat3 V c).arrAt 4 cfg3.N = combined V hcol hrow h0 c :=
  (dat3 V c).arrAt_eq_of_cover 4 (combined V hcol hrow h0 c) (fun t _ => flushed_eq V hcol hrow h0 c t) cover

end Cert.KernelIdeal.Region3

end
-- ==== Proof.RegionFc4.lean ====
/-
  Region 4, the final dense layer: after the pipeline's run the output array `main_v50` is h · Wfc + b of the arrays
  the region finds — the [100000, 64] array `main_v48`, the [64, 16] weights `main_arg6` and the bias as a row [1, 16]
  `main_v49` —, written with the host's whole-array operations: the `dot_general` plus the row broadcast to [100000, 16].

  Point `t` of the 20-point grid multiplies rows 5000·t … 5000·t + 4999 of the left array by the whole weights, adds the
  bias row, and writes the same rows of the output; the 20 row blocks tile the 100000 rows.
-/
import proofs.«414285_j48490180772147_1_alg».proof.Proof.Gen.KernelIdeal.Frame
import proofs.«414285_j48490180772147_1_alg».proof.Proof.LibBlockDot
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- h · Wfc + b of the arrays the region finds, in the host's whole-array operations. -/
abbrev affine (hrow : S1x16.BroadcastsInDim S100000x16 ![0, 1]) (c : Dev nD) : S100000x16.Idx → EReal :=
  addf (F := Ideal)
    (Host.dotGeneral (F := Ideal) (φ₁ := .f32) (φ₂ := .f32) Cert.ReferenceIdeal.dot_S100000x64_S64x16_S100000x16_1_0_0_1_n_n none
      (V c main_v48 : S100000x64.Idx → EReal) (V c main_arg6 : S64x16.Idx → EReal))
    (broadcastInDim S100000x16 ![0, 1] hrow (V c main_v49 : FVec Ideal S1x16 .f32))

/-- Entry (0, n) of a [1, 16] row. -/
abbrev brow (n : Fin 16) : S1x16.Idx := fun a => match a with
  | ⟨0, _⟩ => ⟨0, Nat.zero_lt_one⟩
  | ⟨1, _⟩ => ⟨n.val, n.isLt⟩

/-- The block payload at an index: the block product's entry plus the bias row's entry under the same column
    (the two shape casts are to the same shape, and the broadcast of the row reads it at (0, column)). -/
theorem pay_apply (x0 : Vec Ideal S5000x64 .f32) (x3 : Vec Ideal S64x16 .f32) (x5 : Vec Ideal S1x16 .f32) (j : S5000x16.Idx) :
    k4_pay1 (F := Ideal) x0 x3 x5 j
      = matmul (F := Ideal) dot_S5000x64_S64x16_S5000x16_1_0_0_1_n_n none
          (truncf .bf16 (x0 : FVec Ideal S5000x64 .f32) bitsLt_bf16_f32) (truncf .bf16 (x3 : FVec Ideal S64x16 .f32) bitsLt_bf16_f32)
          (constant S5000x16 .f32 0x00000000#32) j
        + x5 (brow ⟨(j 1).val, (j 1).isLt⟩) := by
  unfold k4_pay1
  simp only [shapeCast_self]
  refine congrArg₂ (· + ·) rfl ?_
  refine broadcastTo_apply (x5 : S1x16.Idx → EReal) broadcasts_S1x16_S5000x16 j _ fun a => ?_
  match a with
  | ⟨0, _⟩ => rfl
  | ⟨1, _⟩ => rfl

/-- The bias row broadcast down the 100000 rows, at an index: the row's entry under the same column. -/
theorem bcastRow_apply (hrow : S1x16.BroadcastsInDim S100000x16 ![0, 1]) (b : FVec Ideal S1x16 .f32) (i : S100000x16.Idx) :
    broadcastInDim S100000x16 ![0, 1] hrow b i = b (brow ⟨(i 1).val, (i 1).isLt⟩) := by
  refine broadcastInDim_apply _ hrow b i _ fun a => ?_
  match a with
  | ⟨0, _⟩ => rfl
  | ⟨1, _⟩ => rfl

/-- The printed index maps over the grid: the left and output windows sit at row block `t`, the weights and the bias at their one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the whole affine map. -/
theorem flushed_eq (hrow) (c : Dev nD) (t : Fin cfg4.N) :
    (dat4 V c).flushed 3 t = ((cfg4.win 3).blk t).view.read (Elt Ideal) (affine V hrow c) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x16) hz, View.ld_unit_zero (S := S1x16) hz]
  obtain ⟨e00, e01, e10, e11, e20, e21, e30, e31⟩ := idx_facts t
  funext j
  show k4_pay1 (iblk4 V c 0 t) (iblk4 V c 1 t) (iblk4 V c 2 t) j = affine V hrow c (((cfg4.win 3).blk t).view.emb j)
  refine (pay_apply (iblk4 V c 0 t) (iblk4 V c 1 t) (iblk4 V c 2 t) j).trans ?_
  show _ + _
    = Host.dotGeneral (F := Ideal) (φ₁ := .f32) (φ₂ := .f32) Cert.ReferenceIdeal.dot_S100000x64_S64x16_S100000x16_1_0_0_1_n_n none
        (V c main_v48 : S100000x64.Idx → EReal) (V c main_arg6 : S64x16.Idx → EReal) (((cfg4.win 3).blk t).view.emb j)
      + broadcastInDim S100000x16 ![0, 1] hrow (V c main_v49 : FVec Ideal S1x16 .f32) (((cfg4.win 3).blk t).view.emb j)
  refine congrArg₂ (· + ·) ?_ ?_
  -- the product: rows 5000·t … of the left array against the whole weights
  · refine Cert.LibBlockDot.matmul16_rows (V c main_v48) (V c main_arg6) (iblk4 V c 0 t) (5000 * t.val) ?_ (iblk4 V c 1 t) ?_ _ j _ ?_ ?_
    · intro y k hk0 hk1
      show V c main_v48 (((cfg4.win 0).blk t).view.emb y) = V c main_v48 k
      refine congrArg _ (funext fun a => Fin.ext ?_)
      match a with
      | ⟨0, _⟩ => show win4_0.index t (0 : Fin 2) * 5000 + 1 * (y 0).val = (k 0).val; rw [e00, hk0]; omega
      | ⟨1, _⟩ => show win4_0.index t (1 : Fin 2) * 64 + 1 * (y 1).val = (k 1).val; rw [e01, hk1]; omega
    · intro y k hk0 hk1
      show V c main_arg6 (((cfg4.win 1).blk t).view.emb y) = V c main_arg6 k
      refine congrArg _ (funext fun a => Fin.ext ?_)
      match a with
      | ⟨0, _⟩ => show win4_1.index t (0 : Fin 2) * 64 + 1 * (y 0).val = (k 0).val; rw [e10, hk0]; omega
      | ⟨1, _⟩ => show win4_1.index t (1 : Fin 2) * 16 + 1 * (y 1).val = (k 1).val; rw [e11, hk1]; omega
    · show win4_3.index t (0 : Fin 2) * 5000 + 1 * (j 0).val = 5000 * t.val + (j 0).val
      rw [e30]; omega
    · show win4_3.index t (1 : Fin 2) * 16 + 1 * (j 1).val = (j 1).val
      rw [e31]; omega
  -- the bias: the row's one block is the whole row, read under the same column on both sides
  · refine Eq.trans ?_ (bcastRow_apply hrow (V c main_v49) (((cfg4.win 3).blk t).view.emb j)).symm
    show V c main_v49 (((cfg4.win 2).blk t).view.emb (brow ⟨(j 1).val, (j 1).isLt⟩)) = V c main_v49 _
    refine congrArg _ (funext fun a => Fin.ext ?_)
    match a with
    | ⟨0, _⟩ => show win4_2.index t (0 : Fin 2) * 1 + 1 * 0 = 0; omega
    | ⟨1, _⟩ =>
      show win4_2.index t (1 : Fin 2) * 16 + 1 * (j 1).val = win4_3.index t (1 : Fin 2) * 16 + 1 * (j 1).val
      omega

/-- Every row of the output array is in some point's block: row `r` in the block of point `r / 5000`. -/
theorem cover (i : S100000x16.Idx) : ∃ t : Fin cfg4.N, (cfg4.win 3).flush t = true ∧ i ∈ ((cfg4.win 3).blk t).view.set := by
  have hi0 : (i 0).val < 100000 := (i 0).isLt
  have hi1 : (i 1).val < 16 := (i 1).isLt
  have hN : cfg4.N = 20 := N_4
  obtain ⟨t, ht⟩ : ∃ t : Fin cfg4.N, t.val = (i 0).val / 5000 := ⟨⟨(i 0).val / 5000, by rw [hN]; omega⟩, rfl⟩
  refine ⟨t, flush4_3 t, ?_⟩
  obtain ⟨-, -, -, -, -, -, e30, e31⟩ := idx_facts t
  show i ∈ ((View.whole main_v50).slice (win4_3.rect t)).set
  rw [View.set_slice_whole, Rect.mem_set_unit]
  intro a
  match a with
  | ⟨0, _⟩ =>
    show win4_3.index t (0 : Fin 2) * 5000 ≤ (i 0).val ∧ (i 0).val < win4_3.index t (0 : Fin 2) * 5000 + 5000
    rw [e30, ht]; omega
  | ⟨1, _⟩ =>
    show win4_3.index t (1 : Fin 2) * 16 ≤ (i 1).val ∧ (i 1).val < win4_3.index t (1 : Fin 2) * 16 + 16
    rw [e31]; omega

/-- THE REGION'S VALUE: the output array after the run. -/
theorem value (hrow) (c : Dev nD) : (dat4 V c).arrAt 3 cfg4.N = affine V hrow c :=
  (dat4 V c).arrAt_eq_of_cover 3 (affine V hrow c) (fun t _ => flushed_eq V hrow c t) cover

end Cert.KernelIdeal.Region4

end
-- ==== Proof.Stages.lean ====
/-
  The kernel's result, stage by stage, is the reference's.

  The kernel's @main is a fold: a host stretch computes the edge data, then for each of the two graph-convolution layers a
  region projects (h · W), a host stretch gathers the projected rows at the source ids, scales them by the edge coefficients
  and scatter-adds them at the target ids, and a region adds the self-loop term and the bias and applies relu; a last region
  applies the final dense layer.  The reference is the same chain of whole-array operations.  At each boundary of the fold the
  buffer a later step reads holds the reference's stage of that value:

    projection      = x · W                                   (a region's row blocks tile the whole product)
    gathered rows   = h[src]                                  (the kernel's fill for out-of-range ids never binds: 0 ≤ src < 100000)
    aggregate       = scatter-add over dst of h[src] · coef   (the same operation on equal operands)
    layer output    = relu(aggregate + h · dinv² + b)         (the kernel's reshaped column and row are the reference's broadcasts)
    result          = h₂ · Wfc + bfc.
-/
import proofs.«414285_j48490180772147_1_alg».proof.Defs
import proofs.«414285_j48490180772147_1_alg».proof.Proof.Gen.KernelIdeal.Frame
import proofs.«414285_j48490180772147_1_alg».proof.Proof.Gen.ReferenceIdeal.Read
import proofs.«414285_j48490180772147_1_alg».proof.Proof.Carry
import proofs.«414285_j48490180772147_1_alg».proof.Proof.Stretch0
import proofs.«414285_j48490180772147_1_alg».proof.Proof.SrcRange
import proofs.«414285_j48490180772147_1_alg».proof.Proof.LibTakeFill
import proofs.«414285_j48490180772147_1_alg».proof.Proof.Takes
import proofs.«414285_j48490180772147_1_alg».proof.Proof.Takes2
import proofs.«414285_j48490180772147_1_alg».proof.Proof.RegionMatmul0
import proofs.«414285_j48490180772147_1_alg».proof.Proof.RegionCombine1
import proofs.«414285_j48490180772147_1_alg».proof.Proof.RegionMatmul2
import proofs.«414285_j48490180772147_1_alg».proof.Proof.RegionCombine3
import proofs.«414285_j48490180772147_1_alg».proof.Proof.RegionFc4
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-! ## Each region's value at arrays given by name -/

theorem matmul0_at (V : (c : Dev nD) → (b : Ref sig .tc) → Buf (Elt Ideal) ((c : Thread nD τ).loc b)) (c : Dev nD)
    (X : S100000x64.Idx → EReal) (W : S64x64.Idx → EReal) (hX : V c main_arg0 = X) (hW : V c main_arg2 = W) :
    (dat0 V c).arrAt 2 cfg0.N = Host.dotGeneral (F := Ideal) (φ₁ := .f32) (φ₂ := .f32) Cert.ReferenceIdeal.dot_S100000x64_S64x64_S100000x64_1_0_0_1_n_n none X W := by
  subst hX hW; exact Region0.value V c

theorem matmul2_at (V : (c : Dev nD) → (b : Ref sig .tc) → Buf (Elt Ideal) ((c : Thread nD τ).loc b)) (c : Dev nD)
    (X : S100000x64.Idx → EReal) (W : S64x64.Idx → EReal) (hX : V c main_v37 = X) (hW : V c main_arg4 = W) :
    (dat2 V c).arrAt 2 cfg2.N = Host.dotGeneral (F := Ideal) (φ₁ := .f32) (φ₂ := .f32) Cert.ReferenceIdeal.dot_S100000x64_S64x64_S100000x64_1_0_0_1_n_n none X W := by
  subst hX hW; exact Region2.value V c

theorem combine1_at (V : (c : Dev nD) → (b : Ref sig .tc) → Buf (Elt Ideal) ((c : Thread nD τ).loc b)) (c : Dev nD)
    (A H : S100000x64.Idx → EReal) (D : S100000x1.Idx → EReal) (B : S1x64.Idx → EReal)
    (hA : V c main_v34 = A) (hH : V c main_v27 = H) (hD : V c main_v36 = D) (hB : V c main_v35 = B) (hcol hrow h0) :
    (dat1 V c).arrAt 4 cfg1.N = maximumf (F := Ideal) (addf (addf (A : FVec Ideal S100000x64 .f32) (mulf (H : FVec Ideal S100000x64 .f32)
        (broadcastInDim S100000x64 ![0, 1] hcol (D : FVec Ideal S100000x1 .f32)))) (broadcastInDim S100000x64 ![0, 1] hrow (B : FVec Ideal S1x64 .f32)))
      (broadcastInDim S100000x64 ![] h0 (constant (F := Ideal) S_ .f32 0x00000000#32)) := by
  subst hA hH hD hB; exact Region1.value V hcol hrow h0 c

theorem combine3_at (V : (c : Dev nD) → (b : Ref sig .tc) → Buf (Elt Ideal) ((c : Thread nD τ).loc b)) (c : Dev nD)
    (A H : S100000x64.Idx → EReal) (D : S100000x1.Idx → EReal) (B : S1x64.Idx → EReal)
    (hA : V c main_v45 = A) (hH : V c main_v38 = H) (hD : V c main_v47 = D) (hB : V c main_v46 = B) (hcol hrow h0) :
    (dat3 V c).arrAt 4 cfg3.N = maximumf (F := Ideal) (addf (addf (A : FVec Ideal S100000x64 .f32) (mulf (H : FVec Ideal S100000x64 .f32)
        (broadcastInDim S100000x64 ![0, 1] hcol (D : FVec Ideal S100000x1 .f32)))) (broadcastInDim S100000x64 ![0, 1] hrow (B : FVec Ideal S1x64 .f32)))
      (broadcastInDim S100000x64 ![] h0 (constant (F := Ideal) S_ .f32 0x00000000#32)) := by
  subst hA hH hD hB; exact Region3.value V hcol hrow h0 c

theorem fc4_at (V : (c : Dev nD) → (b : Ref sig .tc) → Buf (Elt Ideal) ((c : Thread nD τ).loc b)) (c : Dev nD)
    (X : S100000x64.Idx → EReal) (W : S64x16.Idx → EReal) (B : S1x16.Idx → EReal)
    (hX : V c main_v48 = X) (hW : V c main_arg6 = W) (hB : V c main_v49 = B) (hrow) :
    (dat4 V c).arrAt 3 cfg4.N = addf (F := Ideal)
      (Host.dotGeneral (F := Ideal) (φ₁ := .f32) (φ₂ := .f32) Cert.ReferenceIdeal.dot_S100000x64_S64x16_S100000x16_1_0_0_1_n_n none X W)
      (broadcastInDim S100000x16 ![0, 1] hrow (B : FVec Ideal S1x16 .f32)) := by
  subst hX hW hB; exact Region4.value V hrow c

/-! ## Layer 1 -/

/-- The first projection `x · W1`. -/
theorem proj1_eq (c : Dev nD) : W2 m ρ c (Proc.devRef .tc main_v27)
    = val_main_v4 (F := Ideal) (m ((c : Thread nD τ).loc main_arg0)) (m ((c : Thread nD τ).loc main_arg2)) :=
  (W2_arr m ρ c 2).trans (matmul0_at (V1 m ρ) c _ _ (Carry.W1_arg0 m ρ c) (Carry.W1_arg2 m ρ c))

/-- The source ids are node ids, read off the precondition. -/
theorem src_ok (h : Cert.Pre_KernelIdeal m) (c : Dev nD) (e : S1600000.Idx) :
    IntOp.cmpi .sge (val_main_v1 (F := Ideal) (m ((c : Thread nD τ).loc main_arg1)) e) 0#32 = 1#1
    ∧ IntOp.cmpi .slt (val_main_v1 (F := Ideal) (m ((c : Thread nD τ).loc main_arg1)) e) 100000#32 = 1#1 :=
  Cert.SrcRange.src_in_range m h c _ _ e

/-- The gathered rows of the first projection. -/
theorem gathered1_eq (h : Cert.Pre_KernelIdeal m) (c : Dev nD) : W3 m ρ c (Proc.devRef .tc main_v28)
    = val_main_v33 (F := Ideal) (m ((c : Thread nD τ).loc main_arg0)) (m ((c : Thread nD τ).loc main_arg1)) (m ((c : Thread nD τ).loc main_arg2)) :=
  Takes.take1_eq (F := Ideal) (W2 m ρ c) _ _ _ ((Carry.W2_v1 m ρ c).trans (Stretch0.src_eq m ρ c)) (proj1_eq m ρ c) (src_ok m h c)

set_option maxHeartbeats 1600000 in
/-- The aggregate of layer 1. -/
theorem agg1_eq (h : Cert.Pre_KernelIdeal m) (c : Dev nD) : W4 m ρ c (Proc.devRef .tc main_v34)
    = val_main_v39 (F := Ideal) (m ((c : Thread nD τ).loc main_arg0)) (m ((c : Thread nD τ).loc main_arg1)) (m ((c : Thread nD τ).loc main_arg2)) := by
  show StableHlo.after hostOps1_1 (W3 m ρ c) (Proc.devRef .tc main_v34) = _
  generalize hW : W3 m ρ c = Wp
  after_results_simp
  subst hW
  rw [gathered1_eq m ρ h c, Carry.W3_v25 m ρ c, Carry.W2_v25 m ρ c, Stretch0.coef_eq m ρ c,
    Carry.W3_v3 m ρ c, Carry.W2_v3 m ρ c, Stretch0.dst_eq m ρ c]
  rfl

/-- The bias of layer 1 as a row. -/
theorem bias1_eq (c : Dev nD) : W4 m ρ c (Proc.devRef .tc main_v35) = val_main_v45 (F := Ideal) (m ((c : Thread nD τ).loc main_arg3)) := by
  show StableHlo.after hostOps1_1 (W3 m ρ c) (Proc.devRef .tc main_v35) = _
  generalize hW : W3 m ρ c = Wp
  after_results_simp
  subst hW
  rw [Carry.W3_arg3 m ρ c, Carry.W2_arg3 m ρ c, Carry.W1_arg3 m ρ c]
  exact Cert.LibTakeFill.shapeCast_row_eq_bcast _ _ _

/-- The self-loop factors as a column. -/
theorem dcol1_eq (c : Dev nD) : W4 m ρ c (Proc.devRef .tc main_v36) = val_main_v41 (F := Ideal) (m ((c : Thread nD τ).loc main_arg1)) := by
  show StableHlo.after hostOps1_1 (W3 m ρ c) (Proc.devRef .tc main_v36) = _
  generalize hW : W3 m ρ c = Wp
  after_results_simp
  subst hW
  rw [Carry.W3_v26 m ρ c, Carry.W2_v26 m ρ c, Stretch0.dinv2_eq m ρ c]
  exact Cert.LibTakeFill.shapeCast_col_eq_bcast _ _ _

/-- The output of layer 1. -/
theorem layer1_eq (h : Cert.Pre_KernelIdeal m) (c : Dev nD) : W5 m ρ c (Proc.devRef .tc main_v37)
    = val_main_v48 (F := Ideal) (m ((c : Thread nD τ).loc main_arg0)) (m ((c : Thread nD τ).loc main_arg1)) (m ((c : Thread nD τ).loc main_arg2)) (m ((c : Thread nD τ).loc main_arg3)) :=
  (W5_arr m ρ c 4).trans (combine1_at (V4 m ρ) c _ _ _ _ (agg1_eq m ρ h c) ((Carry.W4_v27_from2 m ρ c).trans (proj1_eq m ρ c))
    (dcol1_eq m ρ c) (bias1_eq m ρ c) _ _ _)

/-! ## Layer 2 -/

/-- The second projection `h₁ · W2`. -/
theorem proj2_eq (h : Cert.Pre_KernelIdeal m) (c : Dev nD) : W6 m ρ c (Proc.devRef .tc main_v38)
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W6_arr m ρ c 2).trans (matmul2_at (V5 m ρ) c _ _ (layer1_eq m ρ h c) ((Carry.W5_arg4_from1 m ρ c).trans (Carry.W1_arg4 m ρ c)))

/-- The gathered rows of the second projection. -/
theorem gathered2_eq (h : Cert.Pre_KernelIdeal m) (c : Dev nD) : W7 m ρ c (Proc.devRef .tc main_v39)
    = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Takes2.take2_eq (F := Ideal) (W6 m ρ c) _ _ _ _ _ ((Carry.W6_v1_from1 m ρ c).trans (Stretch0.src_eq m ρ c)) (proj2_eq m ρ h c) (src_ok m h c)

set_option maxHeartbeats 1600000 in
/-- The aggregate of layer 2. -/
theorem agg2_eq (h : Cert.Pre_KernelIdeal m) (c : Dev nD) : W8 m ρ c (Proc.devRef .tc main_v45)
    = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3_1 (W7 m ρ c) (Proc.devRef .tc main_v45) = _
  generalize hW : W7 m ρ c = Wp
  after_results_simp
  subst hW
  rw [gathered2_eq m ρ h c, Carry.W7_v25_from1 m ρ c, Stretch0.coef_eq m ρ c, Carry.W7_v3_from1 m ρ c, Stretch0.dst_eq m ρ c]
  rfl

/-- The bias of layer 2 as a row. -/
theorem bias2_eq (c : Dev nD) : W8 m ρ c (Proc.devRef .tc main_v46) = val_main_v90 (F := Ideal) (m ((c : Thread nD τ).loc main_arg5)) := by
  show StableHlo.after hostOps3_1 (W7 m ρ c) (Proc.devRef .tc main_v46) = _
  generalize hW : W7 m ρ c = Wp
  after_results_simp
  subst hW
  rw [Carry.W7_arg5_from1 m ρ c, Carry.W1_arg5 m ρ c]
  exact Cert.LibTakeFill.shapeCast_row_eq_bcast _ _ _

/-- The self-loop factors as a column, for layer 2 (the reference recomputes them: the same term). -/
theorem dcol2_eq (c : Dev nD) : W8 m ρ c (Proc.devRef .tc main_v47) = val_main_v86 (F := Ideal) (m ((c : Thread nD τ).loc main_arg1)) := by
  show StableHlo.after hostOps3_1 (W7 m ρ c) (Proc.devRef .tc main_v47) = _
  generalize hW : W7 m ρ c = Wp
  after_results_simp
  subst hW
  rw [Carry.W7_v26_from1 m ρ c, Stretch0.dinv2_eq m ρ c]
  exact Cert.LibTakeFill.shapeCast_col_eq_bcast _ _ _

/-- The output of layer 2. -/
theorem layer2_eq (h : Cert.Pre_KernelIdeal m) (c : Dev nD) : W9 m ρ c (Proc.devRef .tc main_v48)
    = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 4).trans (combine3_at (V8 m ρ) c _ _ _ _ (agg2_eq m ρ h c) ((Carry.W8_v38_from6 m ρ c).trans (proj2_eq m ρ h c))
    (dcol2_eq m ρ c) (bias2_eq m ρ c) _ _ _)

/-! ## The final dense layer -/

/-- The final bias as a row. -/
theorem bias3_eq (c : Dev nD) : W10 m ρ c (Proc.devRef .tc main_v49) = val_main_v95 (F := Ideal) (m ((c : Thread nD τ).loc main_arg7)) := by
  show StableHlo.after hostOps4 (W9 m ρ c) (Proc.devRef .tc main_v49) = _
  generalize hW : W9 m ρ c = Wp
  after_results_simp
  subst hW
  rw [Carry.W9_arg7_from1 m ρ c, Carry.W1_arg7 m ρ c]
  exact Cert.LibTakeFill.shapeCast_row_eq_bcast _ _ _

theorem W10_v48 (c : Dev nD) : W10 m ρ c (Proc.devRef .tc main_v48) = W9 m ρ c (Proc.devRef .tc main_v48) := by
  show StableHlo.after hostOps4 (W9 m ρ c) (Proc.devRef .tc main_v48) = _
  after_results

/-- THE KERNEL'S RESULT is the reference's last stage of the same arguments. -/
theorem result_eq (h : Cert.Pre_KernelIdeal m) (c : Dev nD) : W11 m ρ c (Proc.devRef .tc main_v50)
    = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W11_arr m ρ c 3).trans (fc4_at (V10 m ρ) c _ _ _ ((W10_v48 m ρ c).trans (layer2_eq m ρ h c))
    ((Carry.W10_arg6_from1 m ρ c).trans (Carry.W1_arg6 m ρ c)) (bias3_eq m ρ c) _)

end Cert.KernelIdeal.Stages

end
-- ==== Proof.lean ====
/-
  The certificate of a two-layer graph convolution network followed by a dense layer, a Pallas kernel program against its
  jnp reference, equal over the extended reals:

      deg = 1 + #{e : dst e = v},  dinv = deg^(-1/2),  coef e = dinv[src e] · dinv[dst e]
      layer(h, W, b) = relu( Σ_{e : dst e = ·} (h·W)[src e] · coef e  +  (h·W) · dinv²  +  b )
      result = layer(layer(x, W1, b1), W2, b2) · Wfc + bfc.

  The kernel computes the three dense products and the two "add self-loop term, add bias, relu" steps in five pipelined
  regions over row blocks of 5000 nodes and leaves the gathers and scatter-adds to the host; the reference is host
  operations only.  The two programs differ in one place: the kernel gathers the projected rows with a fill for out-of-range
  source ids, the reference's gather clamps the id.  Under the precondition — every float input finite, and every source id
  a node id, 0 ≤ edge_index[0] < 100000 — the fill never binds and, stage by stage, each buffer the kernel's fold leaves
  holds the reference's stage of the same name (Proof/Stages.lean); the rest is structure:

  * the three frames: the two kernel programs' generated frames; the reference's generated run with its result dropped;
  * `preserves`: the ideal pass rewrote nothing, the conjunct is `True`;
  * `algebraic`: the kernel's run with its result array named (Proof/KernelRun.lean), the reference's generated run, and
    `Stages.result_eq` between the two results, the arguments agreeing.
-/
import proofs.«414285_j48490180772147_1_alg».proof.Defs
import proofs.«414285_j48490180772147_1_alg».proof.Proof.Gen.Kernel
import proofs.«414285_j48490180772147_1_alg».proof.Proof.Gen.Kernel.Skeleton
import proofs.«414285_j48490180772147_1_alg».proof.Proof.Gen.Kernel.Launch
import proofs.«414285_j48490180772147_1_alg».proof.Proof.Gen.Kernel.Points
import proofs.«414285_j48490180772147_1_alg».proof.Proof.Gen.Kernel.Frame
import proofs.«414285_j48490180772147_1_alg».proof.Proof.Gen.KernelIdeal
import proofs.«414285_j48490180772147_1_alg».proof.Proof.Gen.KernelIdeal.Skeleton
import proofs.«414285_j48490180772147_1_alg».proof.Proof.Gen.KernelIdeal.Launch
import proofs.«414285_j48490180772147_1_alg».proof.Proof.Gen.KernelIdeal.Points
import proofs.«414285_j48490180772147_1_alg».proof.Proof.Gen.KernelIdeal.Frame
import proofs.«414285_j48490180772147_1_alg».proof.Proof.Gen.ReferenceIdeal
import proofs.«414285_j48490180772147_1_alg».proof.Proof.Gen.ReferenceIdeal.Run
import proofs.«414285_j48490180772147_1_alg».proof.Proof.Gen.ReferenceIdeal.Read
import proofs.«414285_j48490180772147_1_alg».proof.Proof.Gen.Pre_finite_inputs
import proofs.«414285_j48490180772147_1_alg».proof.Proof.KernelRun
import proofs.«414285_j48490180772147_1_alg».proof.Proof.Stages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's last stage of the kernel's arguments in their result arrays. -/
theorem algebraic : Cert.algebraic_KernelIdeal_ReferenceIdeal := by
  intro m ρ m' ρ' hpre hagree
  refine ⟨fun c => Cert.KernelIdeal.Gen.W11 m ρ c (Proc.devRef .tc Cert.KernelIdeal.main_v50), Cert.KernelIdeal.Result.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq]
  obtain ⟨h0, h1, h2, h3, h4, h5, h6, h7⟩ := hagree c
  rw [h0, h1, h2, h3, h4, h5, h6, h7]
  exact (Cert.KernelIdeal.Stages.result_eq m ρ hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
